-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S12288x64 : Shape := ⟨2, ![12288, 64]⟩
abbrev S64x64 : Shape := ⟨2, ![64, 64]⟩
abbrev S64 : Shape := ⟨1, ![64]⟩
abbrev S12288x12288 : Shape := ⟨2, ![12288, 12288]⟩
abbrev S_ : Shape := ⟨0, ![]⟩
abbrev S12288 : Shape := ⟨1, ![12288]⟩

class Facts : Prop where
  bcast_S_S12288x64 : S_.BroadcastsInDim S12288x64 (![] : Fin 0 → Fin S12288x64.rank)
  reducesTo_S12288x64_S_d0_1 : S12288x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S12288x12288 : S_.BroadcastsInDim S12288x12288 (![] : Fin 0 → Fin S12288x12288.rank)
  reducesTo_S12288x12288_S_d0_1 : S12288x12288.ReducesTo [0, 1] S_
  reducesTo_S12288x12288_S12288_d1 : S12288x12288.ReducesTo [1] S12288
  bcast_S_S12288 : S_.BroadcastsInDim S12288 (![] : Fin 0 → Fin S12288.rank)
  reducesTo_S12288_S_d0 : S12288.ReducesTo [0] S_

variable [Facts]

def fn_part2 {F : FTy → Type} [FloatOps F] (main_v28 : IVec S_ 1) (main_v31 : FVec F S12288 .f32) (main_v32 : FVec F S12288 .f32) : IVec S_ 1 :=
  let main_v33 : IVec S12288 1 := cmpf .ogt main_v31 main_v32
  let main_c_13 : IVec S_ 1 := constantI S_ 1 1#1
  let main_v34 : IVec S_ 1 := (fun x v => Host.reduce IntOp.andi x v reducesTo_S12288_S_d0 h_S_) main_v33 main_c_13
  let main_v35 : IVec S_ 1 := andi main_v28 main_v34
  main_v35

def fn_part1 {F : FTy → Type} [FloatOps F] (main_arg4 : FVec F S64 .f32) (main_arg5 : FVec F S12288x12288 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S12288x12288 .f32 := Host.absf main_arg5
  let main_cst_8 : FVec F S_ .f32 := constant S_ .f32 0x7F800000#32
  let main_v25 : FVec F S12288x12288 .f32 := broadcastInDim S12288x12288 ![] bcast_S_S12288x12288 main_cst_8
  let main_v26 : IVec S12288x12288 1 := cmpf .olt main_v24 main_v25
  let main_c_9 : IVec S_ 1 := constantI S_ 1 1#1
  let main_v27 : IVec S_ 1 := (fun x v => Host.reduce IntOp.andi x v reducesTo_S12288x12288_S_d0_1 h_S_) main_v26 main_c_9
  let main_v28 : IVec S_ 1 := andi main_v23 main_v27
  let main_cst_10 : FVec F S_ .f32 := constant S_ .f32 0x00000000#32
  let main_v29 : FVec F S12288 .f32 := (fun x v => Host.reduceAdd x v reducesTo_S12288x12288_S12288_d1 h_S_) main_arg5 main_cst_10
  let main_cst_11 : FVec F S_ .f32 := constant S_ .f32 0x3F800000#32
  let main_v30 : FVec F S12288 .f32 := broadcastInDim S12288 ![] bcast_S_S12288 main_cst_11
  let main_v31 : FVec F S12288 .f32 := addf main_v29 main_v30
  let main_cst_12 : FVec F S_ .f32 := constant S_ .f32 0x00000000#32
  let main_v32 : FVec F S12288 .f32 := broadcastInDim S12288 ![] bcast_S_S12288 main_cst_12
  fn_part2 (F := F) main_v28 main_v31 main_v32

def fn {F : FTy → Type} [FloatOps F] (main_arg0 : FVec F S12288x64 .f32) (main_arg1 : FVec F S64x64 .f32) (main_arg2 : FVec F S64 .f32) (main_arg3 : FVec F S64 .f32) (main_arg4 : FVec F S64 .f32) (main_arg5 : FVec F S12288x12288 .f32) : IVec S_ 1 :=
  let main_v0 : FVec F S12288x64 .f32 := Host.absf main_arg0
  let main_cst : FVec F S_ .f32 := constant S_ .f32 0x7F800000#32
  let main_v1 : FVec F S12288x64 .f32 := broadcastInDim S12288x64 ![] bcast_S_S12288x64 main_cst
  let main_v2 : IVec S12288x64 1 := cmpf .olt main_v0 main_v1
  let main_c : IVec S_ 1 := constantI S_ 1 1#1
  let main_v3 : IVec S_ 1 := (fun x v => Host.reduce IntOp.andi x v reducesTo_S12288x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S12288x64 : Shape := ⟨2, ![12288, 64]⟩
abbrev S64x64 : Shape := ⟨2, ![64, 64]⟩
abbrev S64 : Shape := ⟨1, ![64]⟩
abbrev S12288x12288 : Shape := ⟨2, ![12288, 12288]⟩
abbrev S1x64 : Shape := ⟨2, ![1, 64]⟩
abbrev S12288x1 : Shape := ⟨2, ![12288, 1]⟩
abbrev S512x12288 : Shape := ⟨2, ![512, 12288]⟩
abbrev S512x1 : Shape := ⟨2, ![512, 1]⟩
abbrev S512 : Shape := ⟨1, ![512]⟩
abbrev S256x12288 : Shape := ⟨2, ![256, 12288]⟩
abbrev S256x64 : Shape := ⟨2, ![256, 64]⟩
abbrev S256x1 : Shape := ⟨2, ![256, 1]⟩
abbrev S_ : Shape := ⟨0, ![]⟩

abbrev nBuf : Space → Nat
  | .hbm => 67
  | .vmem => 13
  | .smem => 0
  | _ => 0

abbrev bufTy : (tb : Table) → Fin (tcTables nBuf tb) → BufTy
  | .hbm, ⟨0, _⟩ => ⟨S12288x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S12288x12288, .f32⟩
  | .hbm, ⟨6, _⟩ => ⟨S12288x64, .f32⟩
  | .hbm, ⟨7, _⟩ => ⟨S1x64, .f32⟩
  | .hbm, ⟨8, _⟩ => ⟨S12288x64, .f32⟩
  | .hbm, ⟨9, _⟩ => ⟨S12288x64, .f32⟩
  | .hbm, ⟨10, _⟩ => ⟨S12288x1, .f32⟩
  | .hbm, ⟨11, _⟩ => ⟨S12288x64, .f32⟩
  | .hbm, ⟨12, _⟩ => ⟨S12288x64, .f32⟩
  | .hbm, ⟨13, _⟩ => ⟨S12288x64, .bf16⟩
  | .hbm, ⟨14, _⟩ => ⟨S12288x64, .f32⟩
  | .hbm, ⟨15, _⟩ => ⟨S_, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S_, .i32⟩
  | .hbm, ⟨21, _⟩ => ⟨S_, .f32⟩
  | .hbm, ⟨22, _⟩ => ⟨S64, .f32⟩
  | .hbm, ⟨23, _⟩ => ⟨S1x64, .f32⟩
  | .hbm, ⟨24, _⟩ => ⟨S_, .f32⟩
  | .hbm, ⟨25, _⟩ => ⟨S1x64, .f32⟩
  | .hbm, ⟨26, _⟩ => ⟨S1x64, .f32⟩
  | .hbm, ⟨27, _⟩ => ⟨S12288x64, .f32⟩
  | .hbm, ⟨28, _⟩ => ⟨S12288x64, .f32⟩
  | .hbm, ⟨29, _⟩ => ⟨S12288x64, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S64, .f32⟩
  | .hbm, ⟨35, _⟩ => ⟨S64, .f32⟩
  | .hbm, ⟨36, _⟩ => ⟨S64, .f32⟩
  | .hbm, ⟨37, _⟩ => ⟨S_, .f32⟩
  | .hbm, ⟨38, _⟩ => ⟨S_, .i1⟩
  | .hbm, ⟨39, _⟩ => ⟨S_, .f32⟩
  | .hbm, ⟨40, _⟩ => ⟨S_, .f32⟩
  | .hbm, ⟨41, _⟩ => ⟨S64, .f32⟩
  | .hbm, ⟨42, _⟩ => ⟨S64, .f32⟩
  | .hbm, ⟨43, _⟩ => ⟨S1x64, .f32⟩
  | .hbm, ⟨44, _⟩ => ⟨S12288x64, .f32⟩
  | .hbm, ⟨45, _⟩ => ⟨S12288x64, .f32⟩
  | .hbm, ⟨46, _⟩ => ⟨S_, .f32⟩
  | .hbm, ⟨47, _⟩ => ⟨S64, .f32⟩
  | .hbm, ⟨48, _⟩ => ⟨S64, .f32⟩
  | .hbm, ⟨49, _⟩ => ⟨S64, .f32⟩
  | .hbm, ⟨50, _⟩ => ⟨S1x64, .f32⟩
  | .hbm, ⟨51, _⟩ => ⟨S12288x64, .f32⟩
  | .hbm, ⟨52, _⟩ => ⟨S12288x64, .f32⟩
  | .hbm, ⟨53, _⟩ => ⟨S1x64, .f32⟩
  | .hbm, ⟨54, _⟩ => ⟨S12288x64, .f32⟩
  | .hbm, ⟨55, _⟩ => ⟨S12288x64, .f32⟩
  | .hbm, ⟨56, _⟩ => ⟨S1x64, .f32⟩
  | .hbm, ⟨57, _⟩ => ⟨S12288x64, .f32⟩
  | .hbm, ⟨58, _⟩ => ⟨S12288x64, .f32⟩
  | .hbm, ⟨59, _⟩ => ⟨S_, .f32⟩
  | .hbm, ⟨60, _⟩ => ⟨S_, .f32⟩
  | .hbm, ⟨61, _⟩ => ⟨S12288x64, .f32⟩
  | .hbm, ⟨62, _⟩ => ⟨S12288x64, .i1⟩
  | .hbm, ⟨63, _⟩ => ⟨S_, .f32⟩
  | .hbm, ⟨64, _⟩ => ⟨S12288x64, .f32⟩
  | .hbm, ⟨65, _⟩ => ⟨S12288x64, .f32⟩
  | .hbm, ⟨66, _⟩ => ⟨S12288x64, .f32⟩
  | .local _ .vmem, ⟨0, _⟩ => ⟨S512x12288, .f32⟩
  | .local _ .vmem, ⟨1, _⟩ => ⟨S512x12288, .f32⟩
  | .local _ .vmem, ⟨2, _⟩ => ⟨S512x1, .f32⟩
  | .local _ .vmem, ⟨3, _⟩ => ⟨S512x1, .f32⟩
  | .local _ .vmem, ⟨4, _⟩ => ⟨S256x12288, .f32⟩
  | .local _ .vmem, ⟨5, _⟩ => ⟨S256x12288, .f32⟩
  | .local _ .vmem, ⟨6, _⟩ => ⟨S12288x64, .bf16⟩
  | .local _ .vmem, ⟨7, _⟩ => ⟨S256x64, .f32⟩
  | .local _ .vmem, ⟨8, _⟩ => ⟨S256x64, .f32⟩
  | .local _ .vmem, ⟨9, _⟩ => ⟨S256x1, .f32⟩
  | .local _ .vmem, ⟨10, _⟩ => ⟨S256x1, .f32⟩
  | .local _ .vmem, ⟨11, _⟩ => ⟨S256x64, .f32⟩
  | .local _ .vmem, ⟨12, _⟩ => ⟨S256x64, .f32⟩
  | _, _ => ⟨S12288x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_call0_cst : Ref sig .tc := ⟨.hbm, 21, rfl⟩
abbrev main_call0_v0 : Ref sig .tc := ⟨.hbm, 22, rfl⟩
abbrev main_call0_v1 : Ref sig .tc := ⟨.hbm, 23, rfl⟩
abbrev main_call0_cst_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_1 : Ref sig .tc := ⟨.hbm, 31, rfl⟩
abbrev main_call0_v8 : Ref sig .tc := ⟨.hbm, 32, rfl⟩
abbrev main_call0_cst_2 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_cst_3 : Ref sig .tc := ⟨.hbm, 37, rfl⟩
abbrev main_call0_v12 : Ref sig .tc := ⟨.hbm, 38, rfl⟩
abbrev main_call0_cst_4 : Ref sig .tc := ⟨.hbm, 39, rfl⟩
abbrev main_call0_call0_v0 : Ref sig .tc := ⟨.hbm, 40, rfl⟩
abbrev main_call0_call0_v1 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_cst_1 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_cst_2 : Ref sig .tc := ⟨.hbm, 59, rfl⟩
abbrev main_call1_cst : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v28 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x12288 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x12288 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S12288x64 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  inb_S512x12288_S512x12288_0_0 : ∀ a, (![0, 0] : Fin 2 → Nat) a + S512x12288.size a ≤ S512x12288.size a
  h_S512x12288 : 0 < S512x12288.numel
  reduces_S512x12288_S512 : S512x12288.Reduces [1] S512
  shapeCasts_S512_S512x1 : S512.ShapeCasts S512x1
  inb_S512x1_S512x1_0_0 : ∀ a, (![0, 0] : Fin 2 → Nat) a + S512x1.size a ≤ S512x1.size a
  h_S512x1 : 0 < S512x1.numel
  bcast_S12288x1_S12288x64_0_1 : S12288x1.BroadcastsInDim S12288x64 (![0, 1] : Fin 2 → Fin S12288x64.rank)
  bitsLt_bf16_f32 : FTy.bits .bf16 < FTy.bits .f32
  inb_S256x12288_S256x12288_0_0 : ∀ a, (![0, 0] : Fin 2 → Nat) a + S256x12288.size a ≤ S256x12288.size a
  h_S256x12288 : 0 < S256x12288.numel
  inb_S12288x64_S12288x64_0_0 : ∀ a, (![0, 0] : Fin 2 → Nat) a + S12288x64.size a ≤ S12288x64.size a
  h_S12288x64 : 0 < S12288x64.numel
  shapeCasts_S12288x64_S12288x64 : S12288x64.ShapeCasts S12288x64
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x64_S256x64_0_0 : ∀ a, (![0, 0] : Fin 2 → Nat) a + S256x64.size a ≤ S256x64.size a
  h_S256x64 : 0 < S256x64.numel
  shapeCasts_S256x64_S256x64 : S256x64.ShapeCasts S256x64
  broadcasts_S256x1_S256x64 : S256x1.Broadcasts S256x64
  reducesTo_S12288x64_S64_d0 : S12288x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S12288x64 : S_.BroadcastsInDim S12288x64 (![] : Fin 0 → Fin S12288x64.rank)
  dot_S12288x64_S64x64_S12288x64_1_0_0_1_n_n_wf : DotDims.WF S12288x64 S64x64 S12288x64 [1] [0] [0] [1] [] []
  dot_S256x12288_S12288x64_S256x64_1_0_0_1_n_n_wf : DotDims.WF S256x12288 S12288x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x12288.size a ≤ S12288x12288.size a
  hwx0_0 : ∀ i : grid0.Coords, EltTy.bits .f32 = 32 ∨ (Rect.block (s := S12288x12288) S512x12288.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S12288x1.size a
  hwx0_1 : ∀ i : grid0.Coords, EltTy.bits .f32 = 32 ∨ (Rect.block (s := S12288x1) S512x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x12288.size a ≤ S12288x12288.size a
  hwx1_0 : ∀ i : grid1.Coords, EltTy.bits .f32 = 32 ∨ (Rect.block (s := S12288x12288) S256x12288.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S12288x64.size a ≤ S12288x64.size a
  hwx1_1 : ∀ i : grid1.Coords, EltTy.bits .bf16 = 32 ∨ (Rect.block (s := S12288x64) S12288x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x64.size a ≤ S12288x64.size a
  hwx1_2 : ∀ i : grid1.Coords, EltTy.bits .f32 = 32 ∨ (Rect.block (s := S12288x64) S256x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x1.size a ≤ S12288x1.size a
  hwx1_3 : ∀ i : grid1.Coords, EltTy.bits .f32 = 32 ∨ (Rect.block (s := S12288x1) S256x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S256x64.size a ≤ S12288x64.size a
  hwx1_4 : ∀ i : grid1.Coords, EltTy.bits .f32 = 32 ∨ (Rect.block (s := S12288x64) S256x64.size (cc1_transform_4 i) (hinb1_4 i)).WholeWords (EltTy.packing .f32)

variable [Facts₀]

def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S256x12288_S12288x64_S256x64_1_0_0_1_n_n : DotDims S256x12288 S12288x64 S256x64 where
  lhsContracting := [1]
  rhsContracting := [0]
  lhsNonContracting := [0]
  rhsNonContracting := [1]
  lhsBatch := []
  rhsBatch := []
  wf := dot_S256x12288_S12288x64_S256x64_1_0_0_1_n_n_wf

abbrev win0_0 : Pipeline.Window sig grid0 :=
  Pipeline.Window.ofSpec (Memref.whole main_arg5) S512x12288.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S512x1.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg5) S256x12288.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v7) S12288x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S256x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v8) S256x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S12288x64 : Shape := ⟨2, ![12288, 64]⟩
abbrev S64x64 : Shape := ⟨2, ![64, 64]⟩
abbrev S64 : Shape := ⟨1, ![64]⟩
abbrev S12288x12288 : Shape := ⟨2, ![12288, 12288]⟩
abbrev S12288 : Shape := ⟨1, ![12288]⟩
abbrev S_ : Shape := ⟨0, ![]⟩
abbrev S12288x1 : Shape := ⟨2, ![12288, 1]⟩
abbrev S12288x2 : Shape := ⟨2, ![12288, 2]⟩
abbrev S1x12288 : Shape := ⟨2, ![1, 12288]⟩
abbrev S1x64 : Shape := ⟨2, ![1, 64]⟩

abbrev nBuf : Space → Nat
  | .hbm => 93
  | .vmem => 0
  | .smem => 0
  | _ => 0

abbrev bufTy : (tb : Table) → Fin (tcTables nBuf tb) → BufTy
  | .hbm, ⟨0, _⟩ => ⟨S12288x64, .f32⟩
  | .hbm, ⟨1, _⟩ => ⟨S64x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S12288x12288, .f32⟩
  | .hbm, ⟨6, _⟩ => ⟨S12288, .i32⟩
  | .hbm, ⟨7, _⟩ => ⟨S_, .i32⟩
  | .hbm, ⟨8, _⟩ => ⟨S12288, .i32⟩
  | .hbm, ⟨9, _⟩ => ⟨S12288, .i1⟩
  | .hbm, ⟨10, _⟩ => ⟨S_, .i32⟩
  | .hbm, ⟨11, _⟩ => ⟨S12288, .i32⟩
  | .hbm, ⟨12, _⟩ => ⟨S12288, .i32⟩
  | .hbm, ⟨13, _⟩ => ⟨S12288, .i32⟩
  | .hbm, ⟨14, _⟩ => ⟨S_, .i32⟩
  | .hbm, ⟨15, _⟩ => ⟨S12288, .i32⟩
  | .hbm, ⟨16, _⟩ => ⟨S12288, .i1⟩
  | .hbm, ⟨17, _⟩ => ⟨S_, .i32⟩
  | .hbm, ⟨18, _⟩ => ⟨S12288, .i32⟩
  | .hbm, ⟨19, _⟩ => ⟨S12288, .i32⟩
  | .hbm, ⟨20, _⟩ => ⟨S12288, .i32⟩
  | .hbm, ⟨21, _⟩ => ⟨S12288x1, .i32⟩
  | .hbm, ⟨22, _⟩ => ⟨S12288x1, .i32⟩
  | .hbm, ⟨23, _⟩ => ⟨S12288x2, .i32⟩
  | .hbm, ⟨24, _⟩ => ⟨S_, .f32⟩
  | .hbm, ⟨25, _⟩ => ⟨S12288, .f32⟩
  | .hbm, ⟨26, _⟩ => ⟨S12288x12288, .f32⟩
  | .hbm, ⟨27, _⟩ => ⟨S_, .f32⟩
  | .hbm, ⟨28, _⟩ => ⟨S12288, .f32⟩
  | .hbm, ⟨29, _⟩ => ⟨S12288, .f32⟩
  | .hbm, ⟨30, _⟩ => ⟨S12288x1, .f32⟩
  | .hbm, ⟨31, _⟩ => ⟨S12288x12288, .f32⟩
  | .hbm, ⟨32, _⟩ => ⟨S12288x12288, .f32⟩
  | .hbm, ⟨33, _⟩ => ⟨S1x12288, .f32⟩
  | .hbm, ⟨34, _⟩ => ⟨S12288x12288, .f32⟩
  | .hbm, ⟨35, _⟩ => ⟨S12288x12288, .f32⟩
  | .hbm, ⟨36, _⟩ => ⟨S12288x64, .f32⟩
  | .hbm, ⟨37, _⟩ => ⟨S1x64, .f32⟩
  | .hbm, ⟨38, _⟩ => ⟨S12288x64, .f32⟩
  | .hbm, ⟨39, _⟩ => ⟨S12288x64, .f32⟩
  | .hbm, ⟨40, _⟩ => ⟨S12288x64, .f32⟩
  | .hbm, ⟨41, _⟩ => ⟨S_, .f32⟩
  | .hbm, ⟨42, _⟩ => ⟨S64, .f32⟩
  | .hbm, ⟨43, _⟩ => ⟨S_, .f32⟩
  | .hbm, ⟨44, _⟩ => ⟨S64, .f32⟩
  | .hbm, ⟨45, _⟩ => ⟨S64, .f32⟩
  | .hbm, ⟨46, _⟩ => ⟨S_, .i32⟩
  | .hbm, ⟨47, _⟩ => ⟨S_, .f32⟩
  | .hbm, ⟨48, _⟩ => ⟨S64, .f32⟩
  | .hbm, ⟨49, _⟩ => ⟨S1x64, .f32⟩
  | .hbm, ⟨50, _⟩ => ⟨S_, .f32⟩
  | .hbm, ⟨51, _⟩ => ⟨S1x64, .f32⟩
  | .hbm, ⟨52, _⟩ => ⟨S1x64, .f32⟩
  | .hbm, ⟨53, _⟩ => ⟨S12288x64, .f32⟩
  | .hbm, ⟨54, _⟩ => ⟨S12288x64, .f32⟩
  | .hbm, ⟨55, _⟩ => ⟨S12288x64, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S64, .f32⟩
  | .hbm, ⟨61, _⟩ => ⟨S64, .f32⟩
  | .hbm, ⟨62, _⟩ => ⟨S64, .f32⟩
  | .hbm, ⟨63, _⟩ => ⟨S_, .f32⟩
  | .hbm, ⟨64, _⟩ => ⟨S_, .i1⟩
  | .hbm, ⟨65, _⟩ => ⟨S_, .f32⟩
  | .hbm, ⟨66, _⟩ => ⟨S_, .f32⟩
  | .hbm, ⟨67, _⟩ => ⟨S64, .f32⟩
  | .hbm, ⟨68, _⟩ => ⟨S64, .f32⟩
  | .hbm, ⟨69, _⟩ => ⟨S1x64, .f32⟩
  | .hbm, ⟨70, _⟩ => ⟨S12288x64, .f32⟩
  | .hbm, ⟨71, _⟩ => ⟨S12288x64, .f32⟩
  | .hbm, ⟨72, _⟩ => ⟨S_, .f32⟩
  | .hbm, ⟨73, _⟩ => ⟨S64, .f32⟩
  | .hbm, ⟨74, _⟩ => ⟨S64, .f32⟩
  | .hbm, ⟨75, _⟩ => ⟨S64, .f32⟩
  | .hbm, ⟨76, _⟩ => ⟨S1x64, .f32⟩
  | .hbm, ⟨77, _⟩ => ⟨S12288x64, .f32⟩
  | .hbm, ⟨78, _⟩ => ⟨S12288x64, .f32⟩
  | .hbm, ⟨79, _⟩ => ⟨S1x64, .f32⟩
  | .hbm, ⟨80, _⟩ => ⟨S12288x64, .f32⟩
  | .hbm, ⟨81, _⟩ => ⟨S12288x64, .f32⟩
  | .hbm, ⟨82, _⟩ => ⟨S1x64, .f32⟩
  | .hbm, ⟨83, _⟩ => ⟨S12288x64, .f32⟩
  | .hbm, ⟨84, _⟩ => ⟨S12288x64, .f32⟩
  | .hbm, ⟨85, _⟩ => ⟨S_, .f32⟩
  | .hbm, ⟨86, _⟩ => ⟨S_, .f32⟩
  | .hbm, ⟨87, _⟩ => ⟨S12288x64, .f32⟩
  | .hbm, ⟨88, _⟩ => ⟨S12288x64, .i1⟩
  | .hbm, ⟨89, _⟩ => ⟨S_, .f32⟩
  | .hbm, ⟨90, _⟩ => ⟨S12288x64, .f32⟩
  | .hbm, ⟨91, _⟩ => ⟨S12288x64, .f32⟩
  | .hbm, ⟨92, _⟩ => ⟨S12288x64, .f32⟩
  | _, _ => ⟨S12288x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_call0_cst : Ref sig .tc := ⟨.hbm, 47, rfl⟩
abbrev main_call0_v0 : Ref sig .tc := ⟨.hbm, 48, rfl⟩
abbrev main_call0_v1 : Ref sig .tc := ⟨.hbm, 49, rfl⟩
abbrev main_call0_cst_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_v5 : Ref sig .tc := ⟨.hbm, 54, rfl⟩
abbrev main_call0_v6 : Ref sig .tc := ⟨.hbm, 55, rfl⟩
abbrev main_call0_v7 : Ref sig .tc := ⟨.hbm, 56, rfl⟩
abbrev main_call0_cst_1 : Ref sig .tc := ⟨.hbm, 57, rfl⟩
abbrev main_call0_v8 : Ref sig .tc := ⟨.hbm, 58, rfl⟩
abbrev main_call0_cst_2 : Ref sig .tc := ⟨.hbm, 59, rfl⟩
abbrev main_call0_v9 : Ref sig .tc := ⟨.hbm, 60, rfl⟩
abbrev main_call0_v10 : Ref sig .tc := ⟨.hbm, 61, rfl⟩
abbrev main_call0_v11 : Ref sig .tc := ⟨.hbm, 62, rfl⟩
abbrev main_call0_cst_3 : Ref sig .tc := ⟨.hbm, 63, rfl⟩
abbrev main_call0_v12 : Ref sig .tc := ⟨.hbm, 64, rfl⟩
abbrev main_call0_cst_4 : Ref sig .tc := ⟨.hbm, 65, rfl⟩
abbrev main_call0_call0_v0 : Ref sig .tc := ⟨.hbm, 66, rfl⟩
abbrev main_call0_call0_v1 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_cst_7 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_8 : Ref sig .tc := ⟨.hbm, 85, rfl⟩
abbrev main_call1_cst : Ref sig .tc := ⟨.hbm, 86, rfl⟩
abbrev main_call1_v0 : Ref sig .tc := ⟨.hbm, 87, rfl⟩
abbrev main_call1_v1 : Ref sig .tc := ⟨.hbm, 88, rfl⟩
abbrev main_call1_v2 : Ref sig .tc := ⟨.hbm, 89, rfl⟩
abbrev main_call1_v3 : Ref sig .tc := ⟨.hbm, 90, rfl⟩
abbrev main_call1_v4 : Ref sig .tc := ⟨.hbm, 91, rfl⟩
abbrev main_v48 : Ref sig .tc := ⟨.hbm, 92, rfl⟩

abbrev nD : Nat := 1
abbrev τ : Topo := Topo.v7x

variable {F : FTy → Type} [FloatOps F]

class Facts₀ : Prop where
  bcast_S_S12288 : S_.BroadcastsInDim S12288 (![] : Fin 0 → Fin S12288.rank)
  bcast_S12288_S12288x1_0 : S12288.BroadcastsInDim S12288x1 (![0] : Fin 1 → Fin S12288x1.rank)
  concatenates_S12288x1_S12288x1_S12288x2_d1 : Shape.Concatenates [S12288x1, S12288x1] S12288x2 1
  reducesTo_S12288x12288_S12288_d1 : S12288x12288.ReducesTo [1] S12288
  h_S_ : 0 < S_.numel
  bcast_S12288x1_S12288x12288_0_1 : S12288x1.BroadcastsInDim S12288x12288 (![0, 1] : Fin 2 → Fin S12288x12288.rank)
  bcast_S12288_S1x12288_1 : S12288.BroadcastsInDim S1x12288 (![1] : Fin 1 → Fin S1x12288.rank)
  bcast_S1x12288_S12288x12288_0_1 : S1x12288.BroadcastsInDim S12288x12288 (![0, 1] : Fin 2 → Fin S12288x12288.rank)
  bcast_S64_S1x64_1 : S64.BroadcastsInDim S1x64 (![1] : Fin 1 → Fin S1x64.rank)
  bcast_S1x64_S12288x64_0_1 : S1x64.BroadcastsInDim S12288x64 (![0, 1] : Fin 2 → Fin S12288x64.rank)
  reducesTo_S12288x64_S64_d0 : S12288x64.ReducesTo [0] S64
  bcast_S_S64 : S_.BroadcastsInDim S64 (![] : Fin 0 → Fin S64.rank)
  bcast_S_S1x64 : S_.BroadcastsInDim S1x64 (![] : Fin 0 → Fin S1x64.rank)
  bcast_S_S12288x64 : S_.BroadcastsInDim S12288x64 (![] : Fin 0 → Fin S12288x64.rank)
  scatter_S12288x12288_S12288x2_S12288_n_01_01_1_wf : ScatterDims.WF S12288x12288 S12288x2 S12288 [] [0, 1] [0, 1] 1
  dot_S12288x64_S64x64_S12288x64_1_0_0_1_n_n_wf : DotDims.WF S12288x64 S64x64 S12288x64 [1] [0] [0] [1] [] []
  dot_S12288x12288_S12288x64_S12288x64_1_0_0_1_n_n_wf : DotDims.WF S12288x12288 S12288x64 S12288x64 [1] [0] [0] [1] [] []

variable [Facts₀]

def scatter_S12288x12288_S12288x2_S12288_n_01_01_1 : ScatterDims S12288x12288 S12288x2 S12288 where
  updateWindowDims := []
  insertedWindowDims := [0, 1]
  scatterDimsToOperandDims := [0, 1]
  indexVectorDim := 1
  wf := scatter_S12288x12288_S12288x2_S12288_n_01_01_1_wf
def dot_S12288x64_S64x64_S12288x64_1_0_0_1_n_n : DotDims S12288x64 S64x64 S12288x64 where
  lhsContracting := [1]
  rhsContracting := [0]
  lhsNonContracting := [0]
  rhsNonContracting := [1]
  lhsBatch := []
  rhsBatch := []
  wf := dot_S12288x64_S64x64_S12288x64_1_0_0_1_n_n_wf
def dot_S12288x12288_S12288x64_S12288x64_1_0_0_1_n_n : DotDims S12288x12288 S12288x64 S12288x64 where
  lhsContracting := [1]
  rhsContracting := [0]
  lhsNonContracting := [0]
  rhsNonContracting := [1]
  lhsBatch := []
  rhsBatch := []
  wf := dot_S12288x12288_S12288x64_S12288x64_1_0_0_1_n_n_wf

class Facts : Prop extends Facts₀ where

variable [Facts]
-- ==== Proof.Spec.lean ====
/-
  The graph-convolution layer as mathematics over the extended reals, with no program in sight.

  For an adjacency array A [12288 x 12288], features H [12288 x 64], weights W [64 x 64] and bias b [64]:
    lin    X r f   = (sum_k H r k * W k f) + b f                         the linear layer;
    deg    d r     = rsqrt ((sum_k A r k) + 1)                            the degree factor of row r of A + I;
    prop   r f     = d r * ((sum_k A r k * (d k * X k f)) + d r * X r f)  the propagation, factored: the self loop
                                                                          is added after the product with A;
    adjI   r k     = A r k + [r = k]                                      the adjacency with self loops, A + I;
    degR   r       = rsqrt (0 + sum_k adjI r k)                           the same degree factor, of A + I's row sums;
    propR  r f     = sum_k ((degR r * adjI r k) * degR k) * X k f         the propagation with the normalised
                                                                          adjacency D^(-1/2) (A + I) D^(-1/2) formed first.
  On finite entries with every row sum of A + I positive the two propagations are one function (Join.lean).
  After the propagation both programs apply the same batch normalisation over the rows (mean, biased variance,
  rsqrt (var + eps), scale gamma, shift beta) and the same leaky rectifier; `tail` is that chain, kept closed: nothing
  about it is ever used beyond its being the same function on both sides.
-/
import Idealize.ShloMosaic.PureOps.Ideal
import Idealize.ShloMosaic.PureOps.Contract
import Idealize.ShloMosaic.Lib.ValueIdx

noncomputable section

open scoped BigOperators

namespace Cert.Gcn

open Idealize.ShloMosaic Idealize.ShloMosaic.ValueIdx

abbrev S_ : Shape := ⟨0, ![]⟩
abbrev S64 : Shape := ⟨1, ![64]⟩
abbrev S1x64 : Shape := ⟨2, ![1, 64]⟩
abbrev S64x64 : Shape := ⟨2, ![64, 64]⟩
abbrev S12288x64 : Shape := ⟨2, ![12288, 64]⟩
abbrev S12288x1 : Shape := ⟨2, ![12288, 1]⟩
abbrev S12288x12288 : Shape := ⟨2, ![12288, 12288]⟩

/-! ## The layer -/

/-- The linear layer at row r, feature f. -/
def lin (H : S12288x64.Idx → EReal) (W : S64x64.Idx → EReal) (b : S64.Idx → EReal) (r : Fin 12288) (f : Fin 64) : EReal :=
  (∑ k : Fin 64, H (ix2 r k) * W (ix2 k f)) + b (ix1 f)

/-- The degree factor of row r: the inverse square root of the row sum of A + I, the self loop added to the sum. -/
def deg (A : S12288x12288.Idx → EReal) (r : Fin 12288) : EReal :=
  Ideal.rsqrt ((∑ k : Fin 12288, A (ix2 r k)) + 1)

/-- The propagation, factored: d r * (A (d X) + d X) at (r, f). -/
def prop (A : S12288x12288.Idx → EReal) (X : Fin 12288 → Fin 64 → EReal) (r : Fin 12288) (f : Fin 64) : EReal :=
  deg A r * ((∑ k : Fin 12288, A (ix2 r k) * (deg A k * X k f)) + deg A r * X r f)

/-- The adjacency with self loops. -/
def adjI (A : S12288x12288.Idx → EReal) (r k : Fin 12288) : EReal :=
  A (ix2 r k) + (if r = k then 1 else 0)

/-- The degree factor from the row sums of A + I, the sum started at 0. -/
def degR (A : S12288x12288.Idx → EReal) (r : Fin 12288) : EReal :=
  Ideal.rsqrt (0 + ∑ k : Fin 12288, adjI A r k)

/-- The propagation with the normalised adjacency formed first. -/
def propR (A : S12288x12288.Idx → EReal) (X : Fin 12288 → Fin 64 → EReal) (r : Fin 12288) (f : Fin 64) : EReal :=
  ∑ k : Fin 12288, ((degR A r * adjI A r k) * degR A k) * X k f

/-- A function of (row, feature) as an array. -/
def arr2 (g : Fin 12288 → Fin 64 → EReal) : S12288x64.Idx → EReal := fun i => g (i 0) (i 1)

theorem arr2_ix2 (g : Fin 12288 → Fin 64 → EReal) (r : Fin 12288) (f : Fin 64) : arr2 g (ix2 r f) = g r f := rfl

/-- A function of the row as a column array. -/
def col (g : Fin 12288 → EReal) : S12288x1.Idx → EReal := fun i => g (i 0)

theorem col_ix2 (g : Fin 12288 → EReal) (r : Fin 12288) (z : Fin 1) : col g (ix2 r z) = g r := rfl

/-! ## The shared tail: batch normalisation over the rows, then the leaky rectifier -/

theorem bcast_S64_S1x64_1 : S64.BroadcastsInDim S1x64 (![1] : Fin 1 → Fin S1x64.rank) := by decide
theorem bcast_S1x64_S12288x64_0_1 : S1x64.BroadcastsInDim S12288x64 (![0, 1] : Fin 2 → Fin S12288x64.rank) := by decide
theorem reducesTo_S12288x64_S64_d0 : S12288x64.ReducesTo [0] S64 := by decide
theorem h_S_ : 0 < S_.numel := by decide
theorem bcast_S_S64 : S_.BroadcastsInDim S64 (![] : Fin 0 → Fin S64.rank) := by decide
theorem bcast_S_S1x64 : S_.BroadcastsInDim S1x64 (![] : Fin 0 → Fin S1x64.rank) := by decide
theorem bcast_S_S12288x64 : S_.BroadcastsInDim S12288x64 (![] : Fin 0 → Fin S12288x64.rank) := by decide

/-- The column means of `out`: the column sums over the count. -/
def colMean (out : FVec Ideal S12288x64 .f32) : FVec Ideal S64 .f32 :=
  let cst : FVec Ideal S_ .f32 := constant S_ .f32 0x00000000#32
  let v9 : FVec Ideal S64 .f32 := Host.reduceAdd out cst reducesTo_S12288x64_S64_d0 h_S_
  let cst_0 : FVec Ideal S_ .f32 := constant S_ .f32 0x46400000#32
  let v10 : FVec Ideal S64 .f32 := broadcastInDim S64 ![] bcast_S_S64 cst_0
  Host.divf v9 v10

/-- The squared deviations of `out` from its column means. -/
def sqDev (out : FVec Ideal S12288x64 .f32) : FVec Ideal S12288x64 .f32 :=
  let q_cst : FVec Ideal S_ .f32 := constant S_ .f32 0x00000000#32
  let q_v0 : FVec Ideal S64 .f32 := Host.reduceAdd out q_cst reducesTo_S12288x64_S64_d0 h_S_
  let q_v1 : FVec Ideal S1x64 .f32 := broadcastInDim S1x64 ![1] bcast_S64_S1x64_1 q_v0
  let q_cst_0 : FVec Ideal S_ .f32 := constant S_ .f32 0x46400000#32
  let q_v2 : FVec Ideal S1x64 .f32 := broadcastInDim S1x64 ![] bcast_S_S1x64 q_cst_0
  let q_v3 : FVec Ideal S1x64 .f32 := Host.divf q_v1 q_v2
  let q_v4 : FVec Ideal S12288x64 .f32 := broadcastInDim S12288x64 ![0, 1] bcast_S1x64_S12288x64_0_1 q_v3
  let q_v5 : FVec Ideal S12288x64 .f32 := subf out q_v4
  mulf q_v5 q_v5

/-- The count less the correction `c` (zero here: the biased variance). -/
def varCount (c : IVec S_ 32) : FVec Ideal S_ .f32 :=
  let q_v7 : FVec Ideal S_ .f32 := sitofp .f32 c
  let q_cst_1 : FVec Ideal S_ .f32 := constant S_ .f32 0x46400000#32
  subf q_cst_1 q_v7

/-- The biased column variances: the mean of the squared deviations, kept where the count is positive. -/
def colVar (out : FVec Ideal S12288x64 .f32) : FVec Ideal S64 .f32 :=
  let c : IVec S_ 32 := constantI S_ 32 0#32
  let q_v8 : FVec Ideal S_ .f32 := varCount c
  let q_cst_2 : FVec Ideal S_ .f32 := constant S_ .f32 0x00000000#32
  let q_v9 : FVec Ideal S64 .f32 := Host.reduceAdd (sqDev out) q_cst_2 reducesTo_S12288x64_S64_d0 h_S_
  let q_v10 : FVec Ideal S64 .f32 := broadcastInDim S64 ![] bcast_S_S64 q_v8
  let q_v11 : FVec Ideal S64 .f32 := Host.divf q_v9 q_v10
  let q_cst_3 : FVec Ideal S_ .f32 := constant S_ .f32 0x00000000#32
  let q_v12 : IVec S_ 1 := cmpf .ogt q_v8 q_cst_3
  let q_cst_4 : FVec Ideal S_ .f32 := constant S_ .f32 0x7FC00000#32
  let w_v0 : FVec Ideal S_ .f32 := id q_cst_4
  let w_v1 : FVec Ideal S64 .f32 := broadcastInDim S64 ![] bcast_S_S64 w_v0
  select (broadcastInDim S64 ![] bcast_S_S64 q_v12) q_v11 w_v1

/-- A feature vector spread over the rows. -/
def overRows (v : FVec Ideal S64 .f32) : FVec Ideal S12288x64 .f32 :=
  broadcastInDim S12288x64 ![0, 1] bcast_S1x64_S12288x64_0_1 (broadcastInDim S1x64 ![1] bcast_S64_S1x64_1 v)

/-- The normalisation: deviations from the mean, scaled by rsqrt (var + eps) and gamma, shifted by beta. -/
def bnorm (out : FVec Ideal S12288x64 .f32) (gamma beta : FVec Ideal S64 .f32) : FVec Ideal S12288x64 .f32 :=
  let v15 : FVec Ideal S12288x64 .f32 := subf out (overRows (colMean out))
  let cst_1 : FVec Ideal S_ .f32 := constant S_ .f32 0x3727C5AC#32
  let v16 : FVec Ideal S64 .f32 := broadcastInDim S64 ![] bcast_S_S64 cst_1
  let v17 : FVec Ideal S64 .f32 := addf (colVar out) v16
  let v18 : FVec Ideal S64 .f32 := Host.rsqrt v17
  let v21 : FVec Ideal S12288x64 .f32 := mulf v15 (overRows v18)
  let v24 : FVec Ideal S12288x64 .f32 := mulf v21 (overRows gamma)
  addf v24 (overRows beta)

/-- The leaky rectifier with the slope constant. -/
def leaky (x : FVec Ideal S12288x64 .f32) : FVec Ideal S12288x64 .f32 :=
  let cst_2 : FVec Ideal S_ .f32 := constant S_ .f32 0x3C23D70A#32
  let l_cst : FVec Ideal S_ .f32 := constant S_ .f32 0x00000000#32
  let l_v0 : FVec Ideal S12288x64 .f32 := broadcastInDim S12288x64 ![] bcast_S_S12288x64 l_cst
  let l_v1 : IVec S12288x64 1 := cmpf .oge x l_v0
  let l_v2 : FVec Ideal S_ .f32 := id cst_2
  let l_v3 : FVec Ideal S12288x64 .f32 := broadcastInDim S12288x64 ![] bcast_S_S12288x64 l_v2
  let l_v4 : FVec Ideal S12288x64 .f32 := mulf l_v3 x
  select l_v1 x l_v4

/-- The operations both programs apply to the propagated features: batch normalisation, then the rectifier. -/
def tail (out : FVec Ideal S12288x64 .f32) (gamma beta : FVec Ideal S64 .f32) : FVec Ideal S12288x64 .f32 :=
  leaky (bnorm out gamma beta)

end Cert.Gcn

end
-- ==== Proof.Join.lean ====
/-
  The two propagations of the graph-convolution layer are one function.

  With real entries a r k of the adjacency, real features x k f and every row sum s r = (sum_k a r k) + 1 of A + I
  positive, the degree factor d r = rsqrt (s r) is a real number, and
      sum_k ((d r * (a r k + [r = k])) * d k) * x k f  =  d r * ((sum_k a r k * (d k * x k f)) + d r * x r f):
  the sum over k of the [r = k] term keeps the single summand at k = r, and the factor d r comes out of the rest.
  Products do not distribute over sums on the extended reals in general, so the identity is proved over the reals
  and carried to the extended reals through the coercion, which commutes with finite sums and products of reals.
  The row sums agree without any finiteness: sum_k (A r k + [r = k]) = (sum_k A r k) + 1 holds in every additive
  commutative monoid.
-/
import proofs.«180802_j54073638257182_1_alg».proof.Proof.Spec
import Mathlib.Data.EReal.Basic
import Mathlib.Algebra.BigOperators.Ring.Finset
import Mathlib.Algebra.BigOperators.Group.Finset.Basic
import Mathlib.Algebra.BigOperators.Group.Finset.Piecewise
import Mathlib.Tactic.Ring

noncomputable section

open scoped BigOperators

namespace Cert.Gcn

open Idealize.ShloMosaic Idealize.ShloMosaic.ValueIdx

/-! ## The coercion of a finite sum of reals -/

/-- The coercion from the reals to the extended reals commutes with finite sums. -/
theorem coe_sum {ι : Type} (s : Finset ι) (g : ι → ℝ) :
    ((∑ i ∈ s, g i : ℝ) : EReal) = ∑ i ∈ s, (g i : EReal) := by
  classical
  induction s using Finset.induction_on with
  | empty => simp
  | insert i s hi ih => rw [Finset.sum_insert hi, Finset.sum_insert hi, EReal.coe_add, ih]

/-! ## The linear layer is real on real arguments -/

theorem lin_real (H : S12288x64.Idx → EReal) (W : S64x64.Idx → EReal) (b : S64.Idx → EReal)
    (hH : ∀ i, ∃ x : ℝ, H i = (x : EReal)) (hW : ∀ i, ∃ x : ℝ, W i = (x : EReal)) (hb : ∀ i, ∃ x : ℝ, b i = (x : EReal))
    (r : Fin 12288) (f : Fin 64) : ∃ x : ℝ, lin H W b r f = (x : EReal) := by
  choose h hh using hH
  choose w hw using hW
  choose c hc using hb
  refine ⟨(∑ k : Fin 64, h (ix2 r k) * w (ix2 k f)) + c (ix1 f), ?_⟩
  unfold lin
  simp only [hh, hw, hc]
  rw [EReal.coe_add, coe_sum]
  simp only [EReal.coe_mul]

/-! ## The identities over the reals, for any finite index type -/

section Law

variable {ι : Type} [Fintype ι] [DecidableEq ι]

/-- Over the reals: the product with the normalised adjacency d r (a r k + [r = k]) d k, summed over k, is the
    factored form d r ((sum_k a r k (d k x k)) + d r x r). -/
theorem real_law (a : ι → ι → ℝ) (d : ι → ℝ) (x : ι → ℝ) (r : ι) :
    ∑ k, ((d r * (a r k + if r = k then 1 else 0)) * d k) * x k
      = d r * ((∑ k, a r k * (d k * x k)) + d r * x r) := by
  have h1 : ∀ k, ((d r * (a r k + if r = k then 1 else 0)) * d k) * x k
      = d r * (a r k * (d k * x k)) + (if r = k then d r * (d k * x k) else 0) := by
    intro k
    split_ifs <;> ring
  simp only [h1, Finset.sum_add_distrib, Finset.sum_ite_eq, Finset.mem_univ, if_true, ← Finset.mul_sum]
  ring

/-- The same identity between extended reals that are coercions of reals. -/
theorem ereal_law (a : ι → ι → ℝ) (d : ι → ℝ) (x : ι → ℝ) (r : ι) :
    ∑ k, (((d r : EReal) * ((a r k : EReal) + if r = k then 1 else 0)) * (d k : EReal)) * (x k : EReal)
      = (d r : EReal) * ((∑ k, (a r k : EReal) * ((d k : EReal) * (x k : EReal))) + (d r : EReal) * (x r : EReal)) := by
  have hite : ∀ k, ((a r k : EReal) + (if r = k then (1 : EReal) else 0))
      = ((a r k + if r = k then 1 else 0 : ℝ) : EReal) := by
    intro k
    split_ifs <;> simp
  simp only [hite, ← EReal.coe_mul, ← coe_sum, ← EReal.coe_add]
  rw [EReal.coe_eq_coe_iff]
  exact real_law a d x r

end Law

/-! ## The degree factors -/

/-- The row sums of A + I are the row sums of A plus one, so the two degree factors are one function. -/
theorem degR_eq_deg (A : S12288x12288.Idx → EReal) (r : Fin 12288) : degR A r = deg A r := by
  unfold degR deg adjI
  rw [zero_add, Finset.sum_add_distrib, Finset.sum_ite_eq]
  simp only [Finset.mem_univ, if_true]

/-- On real entries with a positive row sum of A + I the degree factor is a real number. -/
theorem deg_real (A : S12288x12288.Idx → EReal) (a : Fin 12288 → Fin 12288 → ℝ)
    (ha : ∀ r k, A (ix2 r k) = (a r k : EReal)) (r : Fin 12288)
    (hpos : (0 : EReal) < (∑ k : Fin 12288, A (ix2 r k)) + 1) : ∃ d : ℝ, deg A r = (d : EReal) := by
  have hs : (∑ k : Fin 12288, A (ix2 r k)) + 1 = (((∑ k : Fin 12288, a r k) + 1 : ℝ) : EReal) := by
    simp only [ha]
    rw [EReal.coe_add, coe_sum, EReal.coe_one]
  rw [hs, EReal.coe_pos] at hpos
  refine ⟨(Real.sqrt ((∑ k : Fin 12288, a r k) + 1))⁻¹, ?_⟩
  unfold deg
  rw [hs, Ideal.rsqrt_coe, if_neg (not_lt.mpr hpos.le), if_neg hpos.ne']

/-! ## The two propagations agree -/

theorem propR_eq_prop (A : S12288x12288.Idx → EReal) (X : Fin 12288 → Fin 64 → EReal)
    (hA : ∀ i, ∃ a : ℝ, A i = (a : EReal)) (hX : ∀ k f, ∃ x : ℝ, X k f = (x : EReal))
    (hpos : ∀ r : Fin 12288, (0 : EReal) < (∑ k : Fin 12288, A (ix2 r k)) + 1) :
    propR A X = prop A X := by
  have hA' : ∀ r k : Fin 12288, ∃ a : ℝ, A (ix2 r k) = (a : EReal) := fun r k => hA (ix2 r k)
  choose a ha using hA'
  choose x hx using hX
  have hd : ∀ r, ∃ d : ℝ, deg A r = (d : EReal) := fun r => deg_real A a ha r (hpos r)
  choose d hd using hd
  funext r f
  unfold propR prop
  simp only [degR_eq_deg, hd, hx]
  unfold adjI
  simp only [ha]
  exact ereal_law a d (fun k => x k f) r

end Cert.Gcn

end
-- ==== Proof.PreFacts.lean ====
/-
  The precondition, decoded. The printed precondition of this certificate is the conjunction of six tests
  "every entry x of the array has |x| < +inf", one for each input array, and one further test "every row sum of A,
  plus 1, is above 0". At the ideal instance an entry is an extended real, |x| is max x (-x), the constant
  0x7F800000 is +inf and the comparison is the order of the extended reals: so the first kind of test says that every
  entry is a real number, and the last says 0 < (sum_k A r k) + 1 at every row r, the sum being the exact sum
  over the second axis. This module states those facts for the arrays the layer's mathematics reads (H, W, b, A)
  and for the row sums.
-/
import proofs.«180802_j54073638257182_1_alg».proof.Pre_finite_inputs
import proofs.«180802_j54073638257182_1_alg».proof.Proof.Gen.Pre_finite_inputs
import proofs.«180802_j54073638257182_1_alg».proof.Proof.Spec
import Idealize.ShloMosaic.PureOps.Ideal
import Idealize.ShloMosaic.PureOps.Ideal.Laws
import Idealize.ShloMosaic.Lib.ValueIdx
import Idealize.ShloMosaic.Lib.ReduceAll
import Idealize.ShloMosaic.Lib.StableHlo.Predicate

noncomputable section

open scoped BigOperators

namespace Cert.Gcn

open Idealize.ShloMosaic Idealize.ShloMosaic.ValueIdx

/-- The rank-zero shape has one index. -/
instance subsingleton_scalar_idx : Subsingleton S_.Idx := ⟨fun a b => funext fun d => d.elim0⟩

/-! ## The constants and the comparison at the ideal instance -/

/-- The word 0x7F800000 is +inf. -/
theorem ofBits_inf_f32 : Ideal.ofBits .f32 0x7F800000#32 = ⊤ := by simp [Ideal.ofBits, Ideal.ieee]

/-- The word 0x3F800000 is 1. -/
theorem ofBits_one_f32 : Ideal.ofBits .f32 0x3F800000#32 = 1 := IdealRules.sign_bit.ideal_onePat .f32

/-- An ordered "less than" that holds is the order of the extended reals. -/
theorem lt_of_cmp_olt (a b : EReal) (e : Ideal.cmp .olt a b = 1#1) : a < b := by
  unfold Ideal.cmp at e
  exact of_decide_eq_true ((StableHlo.Predicate.ofBool_eq_one_iff _).1 e)

/-- An ordered "greater than" that holds is the order of the extended reals, turned round. -/
theorem lt_of_cmp_ogt (a b : EReal) (e : Ideal.cmp .ogt a b = 1#1) : b < a := by
  unfold Ideal.cmp at e
  exact of_decide_eq_true ((StableHlo.Predicate.ofBool_eq_one_iff _).1 e)

/-- An extended real whose absolute value max x (-x) is below +inf is a real: +inf has max = +inf, and -inf has
    -(-inf) = +inf. -/
theorem real_of_abs_lt_top (x : EReal) (h : max x (-x) < ⊤) : ∃ r : ℝ, x = (r : EReal) := by
  induction x using EReal.rec with
  | bot => simp at h
  | coe r => exact ⟨r, rfl⟩
  | top => simp at h

/-! ## One test "every entry is finite", read at an entry -/

/-- Where the printed test |x| < +inf holds at an index, the entry there is a real. -/
theorem real_of_test {s : Shape} (x : FVec Ideal s .f32) (hb : S_.BroadcastsInDim s (![] : Fin 0 → Fin s.rank)) (i : s.Idx)
    (e : cmpf .olt (Host.absf x) (broadcastInDim s ![] hb (constant S_ .f32 0x7F800000#32)) i = 1#1) :
    ∃ r : ℝ, x i = (r : EReal) := by
  apply real_of_abs_lt_top
  have e' : Ideal.cmp .olt (max (x i) (-(x i))) (Ideal.ofBits .f32 0x7F800000#32) = 1#1 := e
  rw [ofBits_inf_f32] at e'
  exact lt_of_cmp_olt _ _ e'

/-- Where the and-reduction of that test over every axis is 1, every entry is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) :=
  real_of_test x hb i (Host.reduce_andi_all _ _ hr hu ix0 e i)

/-! ## The row sums -/

theorem reduces_rows : Shape.Reduces S12288x12288 [1] Cert.Pre_finite_inputs.S12288 := by decide

/-- The index the row sum at row r reads at position k of the summed axis is (r, k). -/
theorem lift_row (r k : Fin 12288) : reduces_rows.lift (ix1 r) k = ix2 r k := by
  funext a
  apply Fin.ext
  match a with
  | ⟨0, _⟩ => rfl
  | ⟨1, _⟩ => rfl

/-- The host's sum of A over its second axis, started at 0, is at row r the sum of the row. -/
theorem rowsum_apply (A : FVec Ideal S12288x12288 .f32) (hr : S12288x12288.ReducesTo [1] Cert.Pre_finite_inputs.S12288)
    (hu : 0 < S_.numel) (r : Fin 12288) :
    Host.reduceAdd A (constant S_ .f32 0x00000000#32) hr hu (ix1 r) = ∑ k : Fin 12288, A (ix2 r k) := by
  show Ideal.hostReduceAdd hr A (Ideal.ofBits .f32 0x00000000#32) (ix1 r) = _
  rw [Ideal.hostReduceAdd_single hr reduces_rows, Ideal.ofBits_zero_f32, zero_add]
  exact Finset.sum_congr rfl fun k _ => congrArg A (lift_row r k)

/-! ## The precondition, decoded -/

/-- Under the printed precondition every entry of H, W, b and A is a real, and every row sum of A plus 1 is positive. -/
theorem facts_of_pre (H : FVec Ideal S12288x64 .f32) (W : FVec Ideal S64x64 .f32) (b gamma beta : FVec Ideal S64 .f32)
    (A : FVec Ideal S12288x12288 .f32)
    (h : Cert.Pre_finite_inputs.fn (F := Ideal) H W b gamma beta A = fun _ => 1#1) :
    (∀ i, ∃ x : ℝ, H i = (x : EReal)) ∧ (∀ i, ∃ x : ℝ, W i = (x : EReal)) ∧ (∀ i, ∃ x : ℝ, b i = (x : EReal))
    ∧ (∀ i, ∃ x : ℝ, A i = (x : EReal))
    ∧ ∀ r : Fin 12288, (0 : EReal) < (∑ k : Fin 12288, A (ix2 r k)) + 1 := by
  have h0 := congrFun h ValueIdx.ix0
  dsimp only [Cert.Pre_finite_inputs.fn, Cert.Pre_finite_inputs.fn_part1, Cert.Pre_finite_inputs.fn_part2] at h0
  obtain ⟨h1, hrow⟩ := IntOp.andi_eq_one.1 h0
  obtain ⟨h2, hA⟩ := IntOp.andi_eq_one.1 h1
  obtain ⟨h3, _⟩ := IntOp.andi_eq_one.1 h2
  obtain ⟨h4, _⟩ := IntOp.andi_eq_one.1 h3
  obtain ⟨h5, hb⟩ := IntOp.andi_eq_one.1 h4
  obtain ⟨hH, hW⟩ := IntOp.andi_eq_one.1 h5
  refine ⟨real_of_all H _ _ _ hH, real_of_all W _ _ _ hW, real_of_all b _ _ _ hb, real_of_all A _ _ _ hA, fun r => ?_⟩
  have e := Host.reduce_andi_all _ _ _ _ ix0 hrow (ix1 r)
  have e' : Ideal.cmp .ogt
      (Host.reduceAdd A (constant S_ .f32 0x00000000#32) Cert.Pre_finite_inputs.Facts.reducesTo_S12288x12288_S12288_d1
          Cert.Pre_finite_inputs.Facts.h_S_ (ix1 r) + Ideal.ofBits .f32 0x3F800000#32)
      (Ideal.ofBits .f32 0x00000000#32) = 1#1 := e
  rw [rowsum_apply, ofBits_one_f32, Ideal.ofBits_zero_f32] at e'
  exact lt_of_cmp_ogt _ _ e'

end Cert.Gcn

end
-- ==== Proof.LibRowGatherScatter.lean ====
/-
  GENERAL LEMMAS: two indexed host operations, the broadcasts that feed them, and two small companions, each READ AT AN
  INDEX over the extended reals, for ARBITRARY extents N (table rows), E (edges) and D (features).

  * the row gather (`x[idx]` of an [N, D] table at a column [E, 1] of start words: `rowGather`, `rowGather_apply`):
    result (e, q) is the table at (the start word of edge e read signed and clamped into the rows [0, N − 1], q);
  * the accumulating row scatter (`segment_sum` / `.at[idx].add` of [E, D] updates into an [N, D] operand at a column
    [E, 1] of start words: `rowScatter`, `rowScatter_resultIdx_iff`, `rowScatterAdd_apply`): update (e, q') lands at
    (the start word of edge e read signed and NOT clamped, q'), or nowhere when that is no row; so result (d, q) is the
    operand's entry plus the sum over the edges whose word, read signed, is d of update (e, q);
  * a scalar, a vector as a column, a column over the features, a vector as a row and a row over the rows, each
    broadcast read at an index (`bcastScalar_apply` … `bcastRows_apply`);
  * jnp's index normalisation as a select (`wrap_select`: a negative word counts from the end) and the maximum with a
    broadcast zero (`reluOps_apply`).
  Nothing here mentions a program: the dimension-number records are built from a well-formedness fact the caller has.
-/
import Idealize.ShloMosaic.PureOps.Ideal
import Idealize.ShloMosaic.PureOps.Contract
import Idealize.ShloMosaic.Lib.ValueIdx
import Idealize.ShloMosaic.Lib.Affine
import Idealize.ShloMosaic.Lib.Pipeline.Value
import Idealize.ShloMosaic.Lib.StackMember
import Mathlib.Algebra.BigOperators.Group.Finset.Basic
import Mathlib.Algebra.BigOperators.Fin

noncomputable section

open scoped BigOperators

namespace Cert.ReferenceIdeal.Hand

open Idealize.ShloMosaic Idealize.ShloMosaic.ValueIdx

/-! ## The row gather -/

section Gather
variable {α : Type}

/-- The dimension numbers of a gather of whole rows of an [N, D] table at a column [E, 1] of start words:
    the row axis collapsed and indexed, the feature axis an offset axis. -/
abbrev rowGather (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The row gather at (e, q): the table at the clamped signed start word of e, feature q. -/
theorem rowGather_apply {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) :
    Host.gather (rowGather N E D wf) x idx (ix2 e q)
      = x (ix2 ⟨min (idx (ix2 e 0)).toInt.toNat (N - 1), by omega⟩ q) := by
  unfold Host.gather
  congr 1
  funext a
  refine Fin.ext ?_
  match a with
  | ⟨0, _⟩ =>
    show (rowGather N E D wf).start (ix2 e q) idx 0 + (rowGather N E D wf).batchCoord (ix2 e q) 0
      + (rowGather N E D wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N E D wf).startIndexMap from List.mem_singleton.mpr rfl)]
    have hsi : (rowGather N E D wf).siIdx (ix2 e q) ⟨List.idxOf (0 : Fin 2) (rowGather N E D wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGather N E D wf).start (ix2 e q) idx 1 + (rowGather N E D wf).batchCoord (ix2 e q) 1
      + (rowGather N E D wf).offCoord (ix2 e q) 1 = q.val
    have h1 : (1 : Fin 2) ∉ (rowGather N E D wf).startIndexMap := by
      show (1 : Fin 2) ∉ [(0 : Fin 2)]
      decide
    rw [GatherDims.batchCoord_eq_zero _ _ _ List.not_mem_nil]
    unfold GatherDims.start
    rw [dif_neg h1]
    simp only [Nat.add_zero, Nat.zero_add]
    unfold GatherDims.offCoord
    rw [dif_pos ((GatherDims.mem_sKept _ _).mpr ⟨(show (1 : Fin 2) ∉ [(0 : Fin 2)] by decide), List.not_mem_nil⟩)]
    rfl

/-- The same with the start word of e named: the form a caller uses when the start words are themselves computed. -/
theorem rowGather_apply_of_eq {N E D w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (q : Fin D) (s : BitVec w)
    (hs : idx (ix2 e 0) = s) :
    Host.gather (rowGather N E D wf) x idx (ix2 e q) = x (ix2 ⟨min s.toInt.toNat (N - 1), by omega⟩ q) := by
  subst hs
  exact rowGather_apply hN wf x idx e q

end Gather

/-! ## The accumulating row scatter -/

section Scatter

/-- The dimension numbers of a scatter of whole rows [E, D] into an [N, D] operand at a column [E, 1] of start
    words: the feature axis a window axis, the row axis inserted and indexed. -/
abbrev rowScatter (N E D : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

variable {N E D w : Nat} (wf : ScatterDims.WF ⟨2, ![N, D]⟩ ⟨2, ![E, 1]⟩ ⟨2, ![E, D]⟩ [1] [0] [0] 1)
  (idx : IVec ⟨2, ![E, 1]⟩ w)

/-- On the row axis the window of update (e, q') starts at the start word of e, read signed … -/
theorem rowScatter_start_zero (e : Fin E) (q' : Fin D) :
    (rowScatter N E D wf).start (ix2 e q') idx 0 = (idx (ix2 e 0)).toInt := by
  unfold ScatterDims.start
  rw [dif_pos (show (0 : Fin 2) ∈ (rowScatter N E D wf).scatterDimsToOperandDims from List.mem_singleton.mpr rfl)]
  have hsi : (rowScatter N E D wf).siIdx (ix2 e q') ⟨List.idxOf (0 : Fin 2) (rowScatter N E D wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the feature axis at 0. -/
theorem rowScatter_start_one (e : Fin E) (q' : Fin D) :
    (rowScatter N E D wf).start (ix2 e q') idx 1 = 0 := by
  unfold ScatterDims.start
  rw [dif_neg (show (1 : Fin 2) ∉ [(0 : Fin 2)] by decide)]

/-- The window coordinate of update (e, q') is 0 on the row axis … -/
theorem rowScatter_window_zero (e : Fin E) (q' : Fin D) :
    (rowScatter N E D wf).window (ix2 e q') 0 = 0 := by
  unfold ScatterDims.window
  rw [dif_neg]
  show (0 : Fin 2) ∉ (List.finRange 2).filter (· ∉ [(0 : Fin 2)])
  decide

/-- … and q' on the feature axis. -/
theorem rowScatter_window_one (e : Fin E) (q' : Fin D) :
    (rowScatter N E D wf).window (ix2 e q') 1 = q'.val := by
  unfold ScatterDims.window
  have h1 : (1 : Fin 2) ∈ (rowScatter N E D wf).sKept := by
    show (1 : Fin 2) ∈ (List.finRange 2).filter (· ∉ [(0 : Fin 2)])
    decide
  rw [dif_pos h1]
  rfl

/-- Update (e, q') lands at (d, q) exactly when the start word of e, read signed, is d and q' = q. -/
theorem rowScatter_resultIdx_iff (e : Fin E) (q' : Fin D) (d : Fin N) (q : Fin D) :
    (rowScatter N E D wf).resultIdx? (ix2 e q') idx = some (ix2 d q)
      ↔ (idx (ix2 e 0)).toInt = (d.val : ℤ) ∧ q' = q := by
  unfold ScatterDims.resultIdx?
  split
  · next h =>
    rw [Option.some.injEq]
    have h0 := h 0
    have h1 := h 1
    rw [rowScatter_start_zero, rowScatter_window_zero] at h0
    constructor
    · intro hf
      have e0 := congrArg (fun f => (f 0).val) hf
      have e1 := congrArg (fun f => (f 1).val) hf
      simp only [rowScatter_start_zero, rowScatter_window_zero, rowScatter_start_one, rowScatter_window_one] at e0 e1
      refine ⟨?_, Fin.ext ?_⟩
      · have : ((ix2 d q : (⟨2, ![N, D]⟩ : Shape).Idx) 0).val = d.val := rfl
        omega
      · have : ((ix2 d q : (⟨2, ![N, D]⟩ : Shape).Idx) 1).val = q.val := rfl
        omega
    · rintro ⟨hd, rfl⟩
      funext a
      refine Fin.ext ?_
      match a with
      | ⟨0, _⟩ =>
        show ((rowScatter N E D wf).start (ix2 e q') idx 0 + ((rowScatter N E D wf).window (ix2 e q') 0 : ℕ)).toNat = d.val
        rw [rowScatter_start_zero, rowScatter_window_zero]
        omega
      | ⟨1, _⟩ =>
        show ((rowScatter N E D wf).start (ix2 e q') idx 1 + ((rowScatter N E D wf).window (ix2 e q') 1 : ℕ)).toNat = q'.val
        rw [rowScatter_start_one, rowScatter_window_one]
        omega
  · next h =>
    constructor
    · intro hf
      exact absurd hf (by simp)
    · rintro ⟨hd, rfl⟩
      exfalso
      apply h
      intro a
      match a with
      | ⟨0, _⟩ =>
        show 0 ≤ (rowScatter N E D wf).start (ix2 e q') idx 0 + ((rowScatter N E D wf).window (ix2 e q') 0 : ℕ)
          ∧ (rowScatter N E D wf).start (ix2 e q') idx 0 + ((rowScatter N E D wf).window (ix2 e q') 0 : ℕ) < (N : ℤ)
        rw [rowScatter_start_zero, rowScatter_window_zero]
        have := d.isLt
        omega
      | ⟨1, _⟩ =>
        show 0 ≤ (rowScatter N E D wf).start (ix2 e q') idx 1 + ((rowScatter N E D wf).window (ix2 e q') 1 : ℕ)
          ∧ (rowScatter N E D wf).start (ix2 e q') idx 1 + ((rowScatter N E D wf).window (ix2 e q') 1 : ℕ) < (D : ℤ)
        rw [rowScatter_start_one, rowScatter_window_one]
        have := q'.isLt
        omega

/-- THE ACCUMULATING ROW SCATTER AT (d, q): the operand's entry plus the sum, over the edges whose start word read
    signed is d, of update (e, q). The sum over the rank-2 update indices that land at (d, q) is split by
    coordinates; in the inner sum over features only q' = q survives. -/
theorem rowScatterAdd_apply {φ : FTy} (x : FVec Ideal ⟨2, ![N, D]⟩ φ) (upd : FVec Ideal ⟨2, ![E, D]⟩ φ) (d : Fin N) (q : Fin D) :
    Host.scatterAdd (F := Ideal) (rowScatter N E D wf) x idx upd (ix2 d q)
      = x (ix2 d q) + ∑ e ∈ Finset.univ.filter (fun e : Fin E => (idx (ix2 e 0)).toInt = (d.val : ℤ)), upd (ix2 e q) := by
  show Ideal.hostScatterAdd (rowScatter N E D wf) x idx upd (ix2 d q) = _
  unfold Ideal.hostScatterAdd
  congr 1
  rw [Finset.sum_filter, sum_idx2, Finset.sum_filter]
  refine Finset.sum_congr rfl fun e _ => ?_
  simp only [rowScatter_resultIdx_iff]
  by_cases hd : (idx (ix2 e 0)).toInt = (d.val : ℤ)
  · simp only [hd, true_and, if_true]
    rw [Finset.sum_ite_eq' Finset.univ q (fun q' => upd (ix2 e q'))]
    simp
  · simp only [hd, false_and, if_false]
    exact Finset.sum_const_zero

end Scatter

/-! ## Broadcasts read at an index -/

section Broadcasts
variable {α : Type}

/-- A scalar spread over any shape reads the scalar everywhere. -/
theorem bcastScalar_apply {t : Shape} (h : (⟨0, ![]⟩ : Shape).BroadcastsInDim t ![])
    (v : (⟨0, ![]⟩ : Shape).Idx → α) (j : t.Idx) : broadcastInDim t ![] h v j = v ix0 := by
  unfold broadcastInDim
  exact congrArg v (funext fun a => a.elim0)

/-- A vector as a column [E, 1], at (e, 0): the vector at e. -/
theorem bcastCol_apply {E : Nat} (h : (⟨1, ![E]⟩ : Shape).BroadcastsInDim ⟨2, ![E, 1]⟩ ![0])
    (v : (⟨1, ![E]⟩ : Shape).Idx → α) (e : Fin E) (z : Fin 1) :
    broadcastInDim ⟨2, ![E, 1]⟩ ![0] h v (ix2 e z) = v (ix1 e) := by
  refine broadcastInDim_apply _ h v _ (ix1 e) fun a => ?_
  match a with
  | ⟨0, _⟩ =>
    show e.val = if E = 1 then 0 else e.val
    have := e.isLt
    split <;> omega

/-- A column [E, 1] spread over D features, at (e, q): the column at (e, 0). -/
theorem bcastFeat_apply {E D : Nat} (h : (⟨2, ![E, 1]⟩ : Shape).BroadcastsInDim ⟨2, ![E, D]⟩ ![0, 1])
    (v : (⟨2, ![E, 1]⟩ : Shape).Idx → α) (e : Fin E) (q : Fin D) :
    broadcastInDim ⟨2, ![E, D]⟩ ![0, 1] h v (ix2 e q) = v (ix2 e 0) := by
  refine broadcastInDim_apply _ h v _ (ix2 e 0) fun a => ?_
  match a with
  | ⟨0, _⟩ =>
    show e.val = if E = 1 then 0 else e.val
    have := e.isLt
    split <;> omega
  | ⟨1, _⟩ =>
    show 0 = if 1 = 1 then 0 else q.val
    rfl

/-- A vector [D] as a row [1, D], at (0, q): the vector at q. -/
theorem bcastRow_apply {D : Nat} (h : (⟨1, ![D]⟩ : Shape).BroadcastsInDim ⟨2, ![1, D]⟩ ![1])
    (v : (⟨1, ![D]⟩ : Shape).Idx → α) (z : Fin 1) (q : Fin D) :
    broadcastInDim ⟨2, ![1, D]⟩ ![1] h v (ix2 z q) = v (ix1 q) := by
  refine broadcastInDim_apply _ h v _ (ix1 q) fun a => ?_
  match a with
  | ⟨0, _⟩ =>
    show q.val = if D = 1 then 0 else q.val
    have := q.isLt
    split <;> omega

/-- A row [1, D] spread over N rows, at (d, q): the row at (0, q). -/
theorem bcastRows_apply {N D : Nat} (h : (⟨2, ![1, D]⟩ : Shape).BroadcastsInDim ⟨2, ![N, D]⟩ ![0, 1])
    (v : (⟨2, ![1, D]⟩ : Shape).Idx → α) (d : Fin N) (q : Fin D) :
    broadcastInDim ⟨2, ![N, D]⟩ ![0, 1] h v (ix2 d q) = v (ix2 0 q) := by
  refine broadcastInDim_apply _ h v _ (ix2 0 q) fun a => ?_
  match a with
  | ⟨0, _⟩ =>
    show 0 = if 1 = 1 then 0 else d.val
    rfl
  | ⟨1, _⟩ =>
    show q.val = if D = 1 then 0 else q.val
    have := q.isLt
    split <;> omega

end Broadcasts

/-! ## The start word of a row lookup: a negative word counts from the end -/

/-- The select on "the word is negative" between the word plus the row count and the word itself. -/
theorem wrap_select (s n : BitVec 32) :
    Scalar.select (IntOp.cmpi .slt s 0#32) (IntOp.addi s n) s = if s.toInt < 0 then s + n else s := by
  by_cases h : s.toInt < 0
  · have hc : IntOp.cmpi .slt s 0#32 = 1#1 := IntOp.cmpi_slt.mpr (by simpa using h)
    rw [hc, select_one, if_pos h]
    rfl
  · have hc : ¬IntOp.cmpi .slt s 0#32 = 1#1 := fun hc => h (by simpa using IntOp.cmpi_slt.mp hc)
    rw [eq_zero_of_ne_one hc, select_zero, if_neg h]

/-! ## The rectifier read at an index -/

/-- The maximum with a zero scalar spread over the shape is the maximum with 0, entry by entry. -/
theorem reluOps_apply {t : Shape} (hz : (⟨0, ![]⟩ : Shape).BroadcastsInDim t ![]) (x : FVec Ideal t .f32) (i : t.Idx) :
    maximumf x (broadcastInDim t ![] hz (constant (F := Ideal) ⟨0, ![]⟩ .f32 0x00000000#32)) i = max (x i) 0 := by
  rw [maximumf_apply, bcastScalar_apply, constant_apply, Ideal.ofBits_zero_f32]

end Cert.ReferenceIdeal.Hand

end
-- ==== Proof.KernelHost.lean ====
/-
  The host stretches of the graph-convolution program, read through the contents the run has at each boundary:
  the linear layer X = H W + b before the first region, the scaling Y = d * X (and its copy in the narrower
  format, the identity over the extended reals) between the regions, and after the second region the batch
  normalisation over the rows followed by the leaky rectifier, as one closed function of the propagated features.
-/
import proofs.«180802_j54073638257182_1_alg».proof.Proof.Gen.KernelIdeal.Frame
import proofs.«180802_j54073638257182_1_alg».proof.Proof.Spec
import proofs.«180802_j54073638257182_1_alg».proof.Proof.LibRowGatherScatter
import Idealize.ShloMosaic.Lib.StableHlo.Run
import Idealize.ShloMosaic.PureOps.Ideal.Laws
import Idealize.ShloMosaic.Lib.ValueIdx

noncomputable section

open scoped BigOperators

namespace Cert.KernelIdeal.Host

open Idealize.ShloMosaic Idealize.ShloMosaic.TcCoe Idealize.ShloMosaic.ValueIdx
open Cert.KernelIdeal Cert.KernelIdeal.Gen
open Cert.ReferenceIdeal.Hand (bcastScalar_apply bcastRow_apply bcastRows_apply bcastFeat_apply)

/-! ## The tail: batch normalisation and rectifier, as a fold of fifty-two operations -/

attribute [local irreducible] Idealize.ShloMosaic.Host.reduceAdd Idealize.ShloMosaic.Host.divf Idealize.ShloMosaic.Host.rsqrt in
set_option maxRecDepth 8192 in
set_option maxHeartbeats 400000 in
/-- The four stretches after the second region, folded over any contents, leave at the result buffer the closed
    tail of the propagated features, the scale and the shift: every operation of the fold is spelt in the tail
    as it is in the lists, so the two sides are the same term once the fold is unrolled. The reductions, the
    quotient and the inverse square root are kept folded meanwhile: the comparison never looks inside them. -/
theorem tail_fold (V : Valuation τ sig (Elt Ideal)) :
    StableHlo.after (hostOps2_3 (F := Ideal)) (StableHlo.after (hostOps2_2 (F := Ideal))
        (StableHlo.after (hostOps2_1 (F := Ideal)) (StableHlo.after (hostOps2 (F := Ideal)) V))) (Proc.devRef .tc main_v28)
      = Cert.Gcn.tail (V (Proc.devRef .tc main_v8)) (V (Proc.devRef .tc main_arg3)) (V (Proc.devRef .tc main_arg4)) := by
  simp only [StableHlo.after_cons, StableHlo.after_nil]
  rfl

/-! ## A buffer no operation of a stretch writes keeps its contents -/

variable (m : (ℓ : Loc nD τ sig) → Buf (Elt Ideal) ℓ) (ρ : Dev nD → PrngReg)

/-! ## The first stretch: the linear layer -/

/-- The scale and shift arguments and the adjacency are untouched by the first stretch. -/
theorem w1_of_arg (c : Dev nD) (b : Ref sig .tc) (h0 : b ≠ main_v0) (h1 : b ≠ main_v1) (h2 : b ≠ main_v2) (h3 : b ≠ main_v3) :
    W1 m ρ c (Proc.devRef .tc b) = m ((c : Thread nD τ).loc b) := by
  show StableHlo.after (hostOps0 (F := Ideal)) (W0 m ρ c) (Proc.devRef .tc b) = _
  refine (StableHlo.after_of_forall_not_mem _ _ (List.forall_iff_forall_mem.mp ?_)).trans rfl
  simp only [hostOps0, List.Forall, StableHlo.nullary_writes, StableHlo.unary_writes, StableHlo.binary_writes,
    StableHlo.ternary_writes, Finset.mem_singleton]
  exact ⟨StableHlo.devRef_ne_of_ne h0, StableHlo.devRef_ne_of_ne h1, StableHlo.devRef_ne_of_ne h2, StableHlo.devRef_ne_of_ne h3⟩

theorem v1_arg5 (c : Dev nD) : V1 m ρ c main_arg5 = m ((c : Thread nD τ).loc main_arg5) :=
  w1_of_arg m ρ c main_arg5 (by decide) (by decide) (by decide) (by decide)

/-- On the rows' axis the left operand reads the result's row. -/
theorem lhs_dot_0 (j : S12288x64.Idx) (k : dot_S12288x64_S64x64_S12288x64_1_0_0_1_n_n.contr.Idx) :
    (dot_S12288x64_S64x64_S12288x64_1_0_0_1_n_n.lhsIdx j k 0).val = (j 0).val := by
  unfold DotDims.lhsIdx
  rw [dif_neg (show ¬ (0 : Fin S12288x64.rank) ∈ dot_S12288x64_S64x64_S12288x64_1_0_0_1_n_n.lhsBatch by decide),
    dif_pos (show (0 : Fin S12288x64.rank) ∈ dot_S12288x64_S64x64_S12288x64_1_0_0_1_n_n.lhsNonContracting by decide)]
  rfl
/-- On its contracted axis the left operand reads the contraction position. -/
theorem lhs_dot_1 (j : S12288x64.Idx) (k : dot_S12288x64_S64x64_S12288x64_1_0_0_1_n_n.contr.Idx) :
    (dot_S12288x64_S64x64_S12288x64_1_0_0_1_n_n.lhsIdx j k 1).val = (k ⟨0, by decide⟩).val :=
  DotDims.lhsIdx_val_of_single dot_S12288x64_S64x64_S12288x64_1_0_0_1_n_n (cl := 1) rfl j k
/-- On its contracted axis the right operand reads the contraction position. -/
theorem rhs_dot_0 (j : S12288x64.Idx) (k : dot_S12288x64_S64x64_S12288x64_1_0_0_1_n_n.contr.Idx) :
    (dot_S12288x64_S64x64_S12288x64_1_0_0_1_n_n.rhsIdx j k 0).val = (k ⟨0, by decide⟩).val :=
  DotDims.rhsIdx_val_of_single dot_S12288x64_S64x64_S12288x64_1_0_0_1_n_n (cr := 0) rfl j k
/-- On the features' axis the right operand reads the result's feature. -/
theorem rhs_dot_1 (j : S12288x64.Idx) (k : dot_S12288x64_S64x64_S12288x64_1_0_0_1_n_n.contr.Idx) :
    (dot_S12288x64_S64x64_S12288x64_1_0_0_1_n_n.rhsIdx j k 1).val = (j 1).val := by
  unfold DotDims.rhsIdx
  rw [dif_neg (show ¬ (1 : Fin S64x64.rank) ∈ dot_S12288x64_S64x64_S12288x64_1_0_0_1_n_n.rhsBatch by decide),
    dif_pos (show (1 : Fin S64x64.rank) ∈ dot_S12288x64_S64x64_S12288x64_1_0_0_1_n_n.rhsNonContracting by decide)]
  rfl

/-- The product with the weights at (r, f): the sum over the 64 contracted positions. -/
theorem dot_apply (A : FVec Ideal S12288x64 .f32) (B : FVec Ideal S64x64 .f32) (r : Fin 12288) (f : Fin 64) :
    Host.dotGeneral (F := Ideal) dot_S12288x64_S64x64_S12288x64_1_0_0_1_n_n none A B (ix2 r f) = ∑ k : Fin 64, A (ix2 r k) * B (ix2 k f) := by
  simp only [Host.dotGeneral]
  rw [Ideal.dotGeneral_apply, ← Equiv.sum_comp (contrEquiv1 dot_S12288x64_S64x64_S12288x64_1_0_0_1_n_n 64 rfl rfl).symm]
  refine Finset.sum_congr rfl fun k _ => ?_
  have hk := contrEquiv1_symm_val dot_S12288x64_S64x64_S12288x64_1_0_0_1_n_n 64 rfl rfl k
  have l : dot_S12288x64_S64x64_S12288x64_1_0_0_1_n_n.lhsIdx (ix2 r f) ((contrEquiv1 dot_S12288x64_S64x64_S12288x64_1_0_0_1_n_n 64 rfl rfl).symm k) = ix2 r k := by
    funext a; apply Fin.ext
    match a with
    | ⟨0, _⟩ => exact lhs_dot_0 _ _
    | ⟨1, _⟩ => exact (lhs_dot_1 _ _).trans hk
  have rr : dot_S12288x64_S64x64_S12288x64_1_0_0_1_n_n.rhsIdx (ix2 r f) ((contrEquiv1 dot_S12288x64_S64x64_S12288x64_1_0_0_1_n_n 64 rfl rfl).symm k) = ix2 k f := by
    funext a; apply Fin.ext
    match a with
    | ⟨0, _⟩ => exact (rhs_dot_0 _ _).trans hk
    | ⟨1, _⟩ => exact rhs_dot_1 _ _
  rw [l, rr]

/-- The first stretch leaves the linear layer of the launch arguments. -/
theorem x_eq (c : Dev nD) :
    W1 m ρ c (Proc.devRef .tc main_v3)
      = Cert.Gcn.arr2 (Cert.Gcn.lin (m ((c : Thread nD τ).loc main_arg0)) (m ((c : Thread nD τ).loc main_arg1))
          (m ((c : Thread nD τ).loc main_arg2))) := by
  have e : (W1 m ρ c (Proc.devRef .tc main_v3) : S12288x64.Idx → EReal)
      = addf (Host.dotGeneral (F := Ideal) (φ₁ := .f32) (φ₂ := .f32) dot_S12288x64_S64x64_S12288x64_1_0_0_1_n_n none (m ((c : Thread nD τ).loc main_arg0) : FVec Ideal S12288x64 .f32)
            (m ((c : Thread nD τ).loc main_arg1) : FVec Ideal S64x64 .f32))
          (broadcastInDim S12288x64 ![0, 1] bcast_S1x64_S12288x64_0_1
            (broadcastInDim S1x64 ![1] bcast_S64_S1x64_1 (m ((c : Thread nD τ).loc main_arg2) : FVec Ideal S64 .f32))) := by
    show StableHlo.after (hostOps0 (F := Ideal)) _ (Proc.devRef .tc main_v3) = _
    after_results
  rw [e]
  funext i
  obtain ⟨r, f, rfl⟩ : ∃ (r : Fin 12288) (f : Fin 64), i = ix2 r f := ⟨i 0, i 1, eq_ix2 i⟩
  rw [Cert.Gcn.arr2_ix2, addf_apply, dot_apply, bcastRows_apply, bcastRow_apply]
  rfl

/-! ## The second stretch: the features scaled by the degree factor -/

/-- A buffer the second stretch does not write holds, at the second region's entry, what the first region left. -/
theorem v3_of_unwritten (c : Dev nD) (b : Ref sig .tc) (h5 : b ≠ main_v5) (h6 : b ≠ main_v6) (h7 : b ≠ main_v7) :
    V3 m ρ c b = W2 m ρ c (Proc.devRef .tc b) := by
  show StableHlo.after (hostOps1 (F := Ideal)) (W2 m ρ c) (Proc.devRef .tc b) = _
  refine StableHlo.after_of_forall_not_mem _ _ (List.forall_iff_forall_mem.mp ?_)
  simp only [hostOps1, List.Forall, StableHlo.nullary_writes, StableHlo.unary_writes, StableHlo.binary_writes,
    StableHlo.ternary_writes, Finset.mem_singleton]
  exact ⟨StableHlo.devRef_ne_of_ne h5, StableHlo.devRef_ne_of_ne h6, StableHlo.devRef_ne_of_ne h7⟩

/-- The adjacency, an input window of the first region, leaves that region as it entered it. -/
theorem w2_arg5 (c : Dev nD) : W2 m ρ c (Proc.devRef .tc main_arg5) = W1 m ρ c (Proc.devRef .tc main_arg5) :=
  (W2_arr m ρ c 0).trans (((dat0 (V1 m ρ) c).arrAt_in 0 rfl _).trans (A_eq0 (V1 m ρ) c 0))

theorem v3_arg5 (c : Dev nD) : V3 m ρ c main_arg5 = m ((c : Thread nD τ).loc main_arg5) :=
  (v3_of_unwritten m ρ c main_arg5 (by decide) (by decide) (by decide)).trans
    ((w2_arg5 m ρ c).trans (v1_arg5 m ρ c))

/-- The degree column at the second region's entry is the first region's output array. -/
theorem v3_v4 (c : Dev nD) : V3 m ρ c main_v4 = (dat0 (F := Ideal) (V1 m ρ) c).arrAt 1 cfg0.N :=
  (v3_of_unwritten m ρ c main_v4 (by decide) (by decide) (by decide)).trans (W2_arr m ρ c 1)

/-- The scaled features as an array: the degree column spread over the 64 features, times the linear layer. -/
theorem v3_v6_arr (c : Dev nD) :
    (V3 m ρ c main_v6 : FVec Ideal S12288x64 .f32)
      = mulf (F := Ideal) (φ := .f32) (broadcastInDim S12288x64 ![0, 1] bcast_S12288x1_S12288x64_0_1
            (V3 m ρ c main_v4 : FVec Ideal S12288x1 .f32))
          (W1 m ρ c (Proc.devRef .tc main_v3) : FVec Ideal S12288x64 .f32) := by
  rw [v3_of_unwritten m ρ c main_v4 (by decide) (by decide) (by decide), ← W2_of_ne m ρ c main_v3 (by decide)]
  show StableHlo.after (hostOps1 (F := Ideal)) _ (Proc.devRef .tc main_v6) = _
  after_results

/-- The scaled features at (r, f): the degree factor of row r times the linear layer at (r, f). -/
theorem v3_v6 (c : Dev nD) (r : Fin 12288) (f : Fin 64) :
    (V3 m ρ c main_v6 : FVec Ideal S12288x64 .f32) (ix2 r f)
      = HMul.hMul (α := EReal) (β := EReal) (γ := EReal) ((V3 m ρ c main_v4 : FVec Ideal S12288x1 .f32) (ix2 r 0))
          ((W1 m ρ c (Proc.devRef .tc main_v3) : FVec Ideal S12288x64 .f32) (ix2 r f)) := by
  rw [v3_v6_arr, mulf_apply, bcastFeat_apply]

/-- The copy in the narrower format, as an array: the conversion of the scaled features. -/
theorem v3_v7_arr (c : Dev nD) :
    (V3 m ρ c main_v7 : FVec Ideal S12288x64 .bf16)
      = truncf (F := Ideal) .bf16 (V3 m ρ c main_v6 : FVec Ideal S12288x64 .f32) bitsLt_bf16_f32 := by
  show StableHlo.after (hostOps1 (F := Ideal)) _ (Proc.devRef .tc main_v7) = _
  after_results
  rfl

/-- The copy in the narrower format is the same array over the extended reals. -/
theorem v3_v7 (c : Dev nD) (r : Fin 12288) (f : Fin 64) :
    (V3 m ρ c main_v7 : FVec Ideal S12288x64 .bf16) (ix2 r f) = (V3 m ρ c main_v6 : FVec Ideal S12288x64 .f32) (ix2 r f) := by
  rw [v3_v7_arr, truncf_apply]

/-! ## After the second region -/

theorem w4_v8 (c : Dev nD) :
    W4 m ρ c (Proc.devRef .tc main_v8) = (dat1 (F := Ideal) (V3 m ρ) c).arrAt 4 cfg1.N :=
  W4_arr m ρ c 4

/-- The scale and the shift reach the tail as launched: neither region nor the two stretches before write them. -/
theorem w4_arg3 (c : Dev nD) : W4 m ρ c (Proc.devRef .tc main_arg3) = m ((c : Thread nD τ).loc main_arg3) :=
  (W4_of_ne m ρ c main_arg3 (by decide)).trans
    ((v3_of_unwritten m ρ c main_arg3 (by decide) (by decide) (by decide)).trans
      ((W2_of_ne m ρ c main_arg3 (by decide)).trans
        (w1_of_arg m ρ c main_arg3 (by decide) (by decide) (by decide) (by decide))))
theorem w4_arg4 (c : Dev nD) : W4 m ρ c (Proc.devRef .tc main_arg4) = m ((c : Thread nD τ).loc main_arg4) :=
  (W4_of_ne m ρ c main_arg4 (by decide)).trans
    ((v3_of_unwritten m ρ c main_arg4 (by decide) (by decide) (by decide)).trans
      ((W2_of_ne m ρ c main_arg4 (by decide)).trans
        (w1_of_arg m ρ c main_arg4 (by decide) (by decide) (by decide) (by decide))))

/-- The program's result: the closed tail of the second region's output array, the scale and the shift. -/
theorem out_tail (c : Dev nD) :
    W8 m ρ c (Proc.devRef .tc main_v28)
      = Cert.Gcn.tail (W4 m ρ c (Proc.devRef .tc main_v8)) (m ((c : Thread nD τ).loc main_arg3))
          (m ((c : Thread nD τ).loc main_arg4)) := by
  have h := tail_fold (W4 m ρ c)
  rw [w4_arg3 m ρ c, w4_arg4 m ρ c] at h
  exact h

end Cert.KernelIdeal.Host

end
-- ==== Proof.RowSumValue.lean ====
/-
  The first kernel region's value. The region walks the rows of the adjacency array A [12288 x 12288] in 24 blocks of
  512 rows; at block t it reads rows 512 t .. 512 t + 511 of A, sums each row over its 12288 lanes, adds one (the self
  loop of A + I, added to the sum), takes the inverse square root, and writes the 512 results as rows
  512 t .. 512 t + 511 of a column array [12288 x 1]. The 24 blocks tile that column, so after the last block the column
  holds, at (r, 0), the degree factor  rsqrt ((sum_k A r k) + 1)  of row r: the function `Cert.Gcn.deg A` as a column.

  The steps: the block's stored value at a row (`pay_apply`, `pay_row`); a block of the input window is rows of A
  (`in_block`); what block t writes back is block t of the column of degree factors (`flushed_eq`); every row lies in
  the block numbered by its quotient by 512 (`mem_blk`, `covered`); so the column ends at the degree factors
  (`rowsum_value`).
-/
import proofs.«180802_j54073638257182_1_alg».proof.Proof.Gen.KernelIdeal.Frame
import proofs.«180802_j54073638257182_1_alg».proof.Proof.Spec
import Idealize.ShloMosaic.PureOps.Ideal.Laws
import Idealize.ShloMosaic.Lib.Pipeline.Value
import Idealize.ShloMosaic.Lib.ValueIdx
import Idealize.ShloMosaic.Lib.ValueLayout

set_option maxRecDepth 16384

noncomputable section

open scoped BigOperators
open Idealize.ShloMosaic Idealize.ShloMosaic.TcCoe Idealize.ShloMosaic.ValueIdx Idealize.SL.Sem
open Idealize.ShloMosaic.Pipeline (Dat)

namespace Cert.KernelIdeal.RowSum

open Cert.KernelIdeal Cert.KernelIdeal.Gen

/-! ## The stored value at a row of a block -/

/-- At row p of a [512 x 12288] block the stored value is rsqrt ((the sum of the row's lanes) + 1): the lane sum is
    the reduction over axis 1 read at p, the cast [512] -> [512, 1] keeps the row-major position, the added constant
    is the word of 1.0. -/
theorem pay_apply (x0 : Vec Ideal S512x12288 .f32) (p : Fin 512) :
    k0_pay1 (F := Ideal) x0 (ix2 p 0) = Ideal.rsqrt ((∑ k : Fin 12288, x0 (ix2 p k)) + 1) := by
  unfold k0_pay1
  refine congrArg Ideal.rsqrt ?_
  refine congrArg₂ (· + ·) ?_ ?_
  · refine (shapeCast_apply _ shapeCasts_S512_S512x1 (ix2 p 0) (ix1 p) ?_).trans ?_
    · rw [Shape.rowMajor_val_one, Shape.rowMajor_val_two]
      show p.val = p.val * 1 + 0
      omega
    · refine (Ideal.multiReduction_add_single x0 _ reduces_S512x12288_S512 _ _ (ix1 p)).trans ?_
      show ∑ k : Fin 12288, x0 (reduces_S512x12288_S512.lift (ix1 p) k) = _
      refine Finset.sum_congr rfl fun k _ => congrArg x0 ?_
      funext a
      apply Fin.ext
      match a with
      | ⟨0, _⟩ => rfl
      | ⟨1, _⟩ => rfl
  · show Ideal.ofBits .f32 0x3F800000#32 = 1
    exact IdealRules.sign_bit.ideal_onePat .f32

/-- If the lanes of the block's row `j 0` are row r of A, the stored value at j is the degree factor of row r. -/
theorem pay_row (x0 : Vec Ideal S512x12288 .f32) (A : Cert.Gcn.S12288x12288.Idx → EReal)
    (j : S512x1.Idx) (r : Fin 12288) (hx : ∀ k : Fin 12288, x0 (ix2 (j 0) k) = A (ix2 r k)) :
    k0_pay1 (F := Ideal) x0 j = Cert.Gcn.deg A r := by
  obtain ⟨p, z, rfl⟩ : ∃ (p : Fin 512) (z : Fin 1), j = ix2 p z := ⟨j 0, j 1, eq_ix2 j⟩
  obtain rfl : z = 0 := Subsingleton.elim _ _
  rw [pay_apply]
  unfold Cert.Gcn.deg
  exact congrArg Ideal.rsqrt (congrArg (· + 1) (Finset.sum_congr rfl fun k _ => hx k))

/-! ## From blocks to the array -/

-- the contents of the core's arrays when the region is entered
variable (V : (c : Dev nD) → (b : Ref sig .tc) → Buf (Elt Ideal) ((c : Thread nD τ).loc b))

theorem hz : (![0, 0] : Fin 2 → Nat) = fun _ => 0 := funext fun a => by fin_cases a <;> rfl

/-- Both windows' block at point t is block (t, 0): decided over the 24 points. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The input block at point t, at (p, k), is A at (512 t + p, k). -/
theorem in_block (c : Dev nD) (t : Fin cfg0.N) (p : Fin 512) (k : Fin 12288) (hlt : t.val * 512 + p.val < 12288) :
    (iblk0 (F := Ideal) V c 0 t : Vec Ideal S512x12288 .f32) (ix2 p k)
      = (V c main_arg5 : Cert.Gcn.S12288x12288.Idx → EReal) (ix2 ⟨t.val * 512 + p.val, hlt⟩ k) := by
  obtain ⟨e0, e1, -, -⟩ := idx_facts t
  unfold iblk0
  show V c main_arg5 (((cfg0.win 0).blk t).view.emb (ix2 p k)) = V c main_arg5 _
  refine congrArg (V c main_arg5) ?_
  funext a
  apply Fin.ext
  match a with
  | ⟨0, _⟩ => show win0_0.index t (0 : Fin 2) * 512 + 1 * p.val = t.val * 512 + p.val; rw [e0]; omega
  | ⟨1, _⟩ => show win0_0.index t (1 : Fin 2) * 12288 + 1 * k.val = k.val; rw [e1]; omega

/-- What point t writes back is block t of the column of degree factors of A: row p of the block is row 512 t + p of
    the column, and the input block's row p is row 512 t + p of A. -/
theorem flushed_eq (c : Dev nD) (t : Fin cfg0.N) :
    (dat0 (F := Ideal) V c).flushed 1 t
      = ((cfg0.win 1).blk t).view.read (Elt Ideal) (Cert.Gcn.col (Cert.Gcn.deg (V c main_arg5))) := by
  show (cfg0.win 1).cut (grid0.coords t) ((dat0 V c).after 1 t) = _
  rw [after0_1]
  unfold out0_1
  rw [View.canon_unit_zero hz]
  simp only [View.ld_unit_zero (S := S512x12288) hz]
  funext j
  obtain ⟨e0, e1, e2, e3⟩ := idx_facts t
  have ht : t.val < 24 := t.isLt
  have hj : (j 0).val < 512 := (j 0).isLt
  have hr : t.val * 512 + (j 0).val < 12288 := by omega
  show k0_pay1 (F := Ideal) (iblk0 V c 0 t) j = Cert.Gcn.deg (V c main_arg5) ((((cfg0.win 1).blk t).view.emb j) 0)
  have hemb : (((cfg0.win 1).blk t).view.emb j) 0 = ⟨t.val * 512 + (j 0).val, hr⟩ := by
    apply Fin.ext
    show win0_1.index t (0 : Fin 2) * 512 + 1 * (j 0).val = t.val * 512 + (j 0).val
    rw [e2]; omega
  refine (pay_row (iblk0 V c 0 t) (V c main_arg5) j ⟨t.val * 512 + (j 0).val, hr⟩ (fun k => in_block V c t (j 0) k hr)).trans ?_
  exact congrArg (Cert.Gcn.deg (V c main_arg5)) hemb.symm

/-- An index of the column is in point t's block iff each coordinate is in the block's range on its axis. -/
theorem mem_blk (t : Fin cfg0.N) (i : S12288x1.Idx) :
    i ∈ ((cfg0.win 1).blk t).view.set
      ↔ ∀ a : Fin 2, win0_1.index t a * S512x1.size a ≤ (i a).val ∧ (i a).val < win0_1.index t a * S512x1.size a + S512x1.size a := by
  show i ∈ ((View.whole main_v4).slice (win0_1.rect t)).set ↔ _
  rw [View.set_slice_whole, Rect.mem_set_unit]
  exact Iff.rfl

/-- Row r of the column lies in the block of point r / 512, and every point writes its block back. -/
theorem covered (i : S12288x1.Idx) :
    ∃ t : Fin cfg0.N, (cfg0.win 1).flush t = true ∧ i ∈ ((cfg0.win 1).blk t).view.set := by
  have hi0 : (i 0).val < 12288 := (i 0).isLt
  have hi1 : (i 1).val < 1 := (i 1).isLt
  obtain ⟨t, ht⟩ : ∃ t : Fin cfg0.N, t.val = (i 0).val / 512 :=
    ⟨⟨(i 0).val / 512, by show (i 0).val / 512 < 24; omega⟩, rfl⟩
  obtain ⟨-, -, e2, e3⟩ := idx_facts t
  refine ⟨t, flush0_1 t, ?_⟩
  rw [mem_blk]
  intro a
  match a with
  | ⟨0, _⟩ =>
    show win0_1.index t (0 : Fin 2) * 512 ≤ (i 0).val ∧ (i 0).val < win0_1.index t (0 : Fin 2) * 512 + 512
    rw [e2, ht]; omega
  | ⟨1, _⟩ =>
    show win0_1.index t (1 : Fin 2) * 1 ≤ (i 1).val ∧ (i 1).val < win0_1.index t (1 : Fin 2) * 1 + 1
    rw [e3]; omega

/-- THE COLUMN after the region's 24 points: at (r, 0) the degree factor rsqrt ((sum_k A r k) + 1) of row r of A, for
    A the adjacency array as the region finds it. -/
theorem rowsum_value (c : Dev nD) :
    (dat0 (F := Ideal) V c).arrAt 1 cfg0.N = Cert.Gcn.col (Cert.Gcn.deg (V c main_arg5)) :=
  (dat0 (F := Ideal) V c).arrAt_eq_of_cover 1 (Cert.Gcn.col (Cert.Gcn.deg (V c main_arg5)))
    (fun t _ => flushed_eq V c t) covered

end Cert.KernelIdeal.RowSum

end
-- ==== Proof.PropagateValue.lean ====
/-
  The second kernel region's value. At every grid point t (48 points, blocks of 256 rows) the body reads the adjacency
  block (rows 256 t … 256 t + 255 of A), the whole scaled-feature array Y16, the scaled-feature block of Y and the degree
  block of the column d, and stores, at (p, q) of its output block,
      d p * ((sum_k A p k * Y16 k q) + Y p q).
  Here: the body's value at an index (the format change and the same-shape casts are the identity, the product into a zero
  accumulator is the sum over the contracted coordinate, the column broadcast reads its row's entry); each window's block as
  rows of its array; what a point writes back as a block of ONE function of the four arrays; the cover of the output array by
  the 48 blocks; and so the output array after the region as that function, index by index.
-/
import proofs.«180802_j54073638257182_1_alg».proof.Proof.Gen.KernelIdeal.Frame
import proofs.«180802_j54073638257182_1_alg».proof.Proof.Spec
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.KernelIdeal.Propagate

open Cert.KernelIdeal Cert.KernelIdeal.Gen Idealize.ShloMosaic Idealize.ShloMosaic.ValueIdx Idealize.ShloMosaic.TcCoe
open Idealize.ShloMosaic.Pipeline (Dat)

/-! ## The body's value at an index -/

/-- A column [a, 1] broadcast to [a, b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The product's left operand is read at the output's row … -/
theorem lhs_ax0 (j : S256x64.Idx) (k : dot_S256x12288_S12288x64_S256x64_1_0_0_1_n_n.contr.Idx) :
    (dot_S256x12288_S12288x64_S256x64_1_0_0_1_n_n.lhsIdx j k 0).val = (j 0).val := by
  unfold DotDims.lhsIdx
  rw [dif_neg (show ¬(0 : Fin S256x12288.rank) ∈ dot_S256x12288_S12288x64_S256x64_1_0_0_1_n_n.lhsBatch by decide),
    dif_pos (show (0 : Fin S256x12288.rank) ∈ dot_S256x12288_S12288x64_S256x64_1_0_0_1_n_n.lhsNonContracting by decide)]
  rfl

/-- … and at the contracted position along its columns. -/
theorem lhs_ax1 (j : S256x64.Idx) (k : dot_S256x12288_S12288x64_S256x64_1_0_0_1_n_n.contr.Idx) :
    (dot_S256x12288_S12288x64_S256x64_1_0_0_1_n_n.lhsIdx j k 1).val = (k ⟨0, by decide⟩).val :=
  dot_S256x12288_S12288x64_S256x64_1_0_0_1_n_n.lhsIdx_val_of_single (cl := 1) rfl j k

/-- The right operand is read at the contracted position along its rows … -/
theorem rhs_ax0 (j : S256x64.Idx) (k : dot_S256x12288_S12288x64_S256x64_1_0_0_1_n_n.contr.Idx) :
    (dot_S256x12288_S12288x64_S256x64_1_0_0_1_n_n.rhsIdx j k 0).val = (k ⟨0, by decide⟩).val :=
  dot_S256x12288_S12288x64_S256x64_1_0_0_1_n_n.rhsIdx_val_of_single (cr := 0) rfl j k

/-- … and at the output's column. -/
theorem rhs_ax1 (j : S256x64.Idx) (k : dot_S256x12288_S12288x64_S256x64_1_0_0_1_n_n.contr.Idx) :
    (dot_S256x12288_S12288x64_S256x64_1_0_0_1_n_n.rhsIdx j k 1).val = (j 1).val := by
  unfold DotDims.rhsIdx
  rw [dif_neg (show ¬(1 : Fin S12288x64.rank) ∈ dot_S256x12288_S12288x64_S256x64_1_0_0_1_n_n.rhsBatch by decide),
    dif_pos (show (1 : Fin S12288x64.rank) ∈ dot_S256x12288_S12288x64_S256x64_1_0_0_1_n_n.rhsNonContracting by decide)]
  rfl

/-- The product into a zero accumulator, at (p, q): the sum over the contracted coordinate of the entries' products. -/
theorem matmul_apply_ix2 (a : FVec Ideal S256x12288 .bf16) (b : FVec Ideal S12288x64 .bf16) (p : Fin 256) (q : Fin 64) :
    matmul dot_S256x12288_S12288x64_S256x64_1_0_0_1_n_n none a b (constant (F := Ideal) S256x64 .f32 0x00000000#32) (ix2 p q)
      = ∑ k : Fin 12288, a (ix2 p k) * b (ix2 k q) := by
  show FloatOps.matmul dot_S256x12288_S12288x64_S256x64_1_0_0_1_n_n none a b (constant S256x64 .f32 0x00000000#32) (ix2 p q) = _
  rw [Ideal.matmul_constant_zero_apply,
    ← Equiv.sum_comp (contrEquiv1 dot_S256x12288_S12288x64_S256x64_1_0_0_1_n_n 12288 rfl rfl).symm]
  refine Finset.sum_congr rfl fun k _ => ?_
  have hk := contrEquiv1_symm_val dot_S256x12288_S12288x64_S256x64_1_0_0_1_n_n 12288 rfl rfl k
  have hl : dot_S256x12288_S12288x64_S256x64_1_0_0_1_n_n.lhsIdx (ix2 p q)
      ((contrEquiv1 dot_S256x12288_S12288x64_S256x64_1_0_0_1_n_n 12288 rfl rfl).symm k) = ix2 p k := by
    funext ax; apply Fin.ext
    match ax with
    | ⟨0, _⟩ => exact lhs_ax0 _ _
    | ⟨1, _⟩ => exact (lhs_ax1 _ _).trans hk
  have hr : dot_S256x12288_S12288x64_S256x64_1_0_0_1_n_n.rhsIdx (ix2 p q)
      ((contrEquiv1 dot_S256x12288_S12288x64_S256x64_1_0_0_1_n_n 12288 rfl rfl).symm k) = ix2 k q := by
    funext ax; apply Fin.ext
    match ax with
    | ⟨0, _⟩ => exact (rhs_ax0 _ _).trans hk
    | ⟨1, _⟩ => exact rhs_ax1 _ _
  rw [hl, hr]

/-- The body's stored value at (p, q) of its blocks: the degree column's entry of row p times (row p of the adjacency block
    against column q of the whole scaled-feature array, plus the scaled-feature block's own entry). -/
theorem pay_apply (a : Vec Ideal S256x12288 .f32) (y16 : Vec Ideal S12288x64 .bf16) (dcol : Vec Ideal S256x1 .f32)
    (y : Vec Ideal S256x64 .f32) (p : Fin 256) (q : Fin 64) :
    k1_pay1 (F := Ideal) a y16 dcol y (ix2 p q)
      = (dcol (ix2 p (0 : Fin 1)) : EReal) * ((∑ k : Fin 12288, (a (ix2 p k) : EReal) * (y16 (ix2 k q) : EReal)) + (y (ix2 p q) : EReal)) := by
  unfold k1_pay1
  simp only [shapeCast_self]
  show (broadcastTo S256x64 dcol broadcasts_S256x1_S256x64 (ix2 p q) : EReal)
      * ((matmul dot_S256x12288_S12288x64_S256x64_1_0_0_1_n_n none (truncf (F := Ideal) FTy.bf16 a bitsLt_bf16_f32) y16
            (constant (F := Ideal) S256x64 .f32 0x00000000#32) (ix2 p q) : EReal) + (y (ix2 p q) : EReal)) = _
  rw [broadcastTo_a1_ab_apply dcol broadcasts_S256x1_S256x64 p q, matmul_apply_ix2]
  rfl

/-! ## The output array as one function of the arrays the region reads -/

/-- The propagated entry at (row r, feature f): the degree factor of row r times (row r of the adjacency against column f of
    the scaled features, plus the scaled features' own entry). -/
def propVal (d : S12288x1.Idx → EReal) (A : S12288x12288.Idx → EReal) (y16 y : S12288x64.Idx → EReal)
    (r : Fin 12288) (f : Fin 64) : EReal :=
  d (ix2 r (0 : Fin 1)) * ((∑ k : Fin 12288, A (ix2 r k) * y16 (ix2 k f)) + y (ix2 r f))

/-- The same as an array. -/
def propArr (d : S12288x1.Idx → EReal) (A : S12288x12288.Idx → EReal) (y16 y : S12288x64.Idx → EReal) :
    S12288x64.Idx → EReal := fun i => propVal d A y16 y (i 0) (i 1)

/-- A block of 256 rows computes its rows of the array: if the adjacency, feature and degree blocks are rows
    256 b … 256 b + 255 of their arrays and the second operand is the whole scaled-feature array, the body's value at the
    block index j is the array's entry at row 256 b + j 0. -/
theorem block_value (x0 : Vec Ideal S256x12288 .f32) (x1 : Vec Ideal S12288x64 .bf16) (x2 : Vec Ideal S256x64 .f32)
    (x3 : Vec Ideal S256x1 .f32) (d : S12288x1.Idx → EReal) (A : S12288x12288.Idx → EReal) (y16 y : S12288x64.Idx → EReal)
    (b : ℕ) (j : S256x64.Idx) (i : S12288x64.Idx)
    (hi0 : (i 0).val = b * 256 + (j 0).val) (hi1 : (i 1).val = (j 1).val)
    (h0 : ∀ (x : S256x12288.Idx) (k : S12288x12288.Idx), (k 0).val = b * 256 + (x 0).val → (k 1).val = (x 1).val → x0 x = A k)
    (h1 : ∀ x : S12288x64.Idx, x1 x = y16 x)
    (h2 : ∀ (x : S256x64.Idx) (k : S12288x64.Idx), (k 0).val = b * 256 + (x 0).val → (k 1).val = (x 1).val → x2 x = y k)
    (h3 : ∀ (x : S256x1.Idx) (k : S12288x1.Idx), (k 0).val = b * 256 + (x 0).val → (k 1).val = (x 1).val → x3 x = d k) :
    k1_pay1 (F := Ideal) x0 x1 x3 x2 j = propArr d A y16 y i := by
  obtain ⟨p, q, rfl⟩ : ∃ (p : Fin 256) (q : Fin 64), j = ix2 p q := ⟨j 0, j 1, eq_ix2 j⟩
  obtain ⟨r, f, rfl⟩ : ∃ (r : Fin 12288) (f : Fin 64), i = ix2 r f := ⟨i 0, i 1, eq_ix2 i⟩
  have hr : r.val = b * 256 + p.val := hi0
  have hf : f = q := Fin.ext hi1
  subst hf
  rw [pay_apply]
  show _ = d (ix2 r (0 : Fin 1)) * ((∑ k : Fin 12288, A (ix2 r k) * y16 (ix2 k f)) + y (ix2 r f))
  rw [h3 (ix2 p (0 : Fin 1)) (ix2 r (0 : Fin 1)) hr rfl, h2 (ix2 p f) (ix2 r f) hr rfl]
  congr 2
  refine Finset.sum_congr rfl fun k _ => ?_
  rw [h0 (ix2 p k) (ix2 r k) hr rfl, h1]

theorem hz : (![0, 0] : Fin 2 → Nat) = fun _ => 0 := funext fun a => by fin_cases a <;> rfl

/-- The printed index maps over the grid: the blocked windows sit at block row t, the whole-array window at the origin. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- The adjacency window's block at point t is rows 256 t … 256 t + 255 of the adjacency. -/
theorem iblk_adj (c : Dev nD) (t : Fin cfg1.N) (x : S256x12288.Idx) (k : S12288x12288.Idx)
    (hk0 : (k 0).val = t.val * 256 + (x 0).val) (hk1 : (k 1).val = (x 1).val) :
    (iblk1 V c 0 t : Vec Ideal S256x12288 .f32) x = (V c main_arg5 : S12288x12288.Idx → EReal) k := by
  obtain ⟨e00, e01, -⟩ := idx_facts t
  unfold iblk1
  rw [View.read_apply]
  show V c main_arg5 _ = V c main_arg5 _
  congr 1
  funext a
  apply Fin.ext
  match a with
  | ⟨0, _⟩ => show win1_0.index t (0 : Fin 2) * 256 + 1 * (x 0).val = (k 0).val; omega
  | ⟨1, _⟩ => show win1_0.index t (1 : Fin 2) * 12288 + 1 * (x 1).val = (k 1).val; omega

/-- The scaled-feature window's block at every point is the whole array. -/
theorem iblk_y16 (c : Dev nD) (t : Fin cfg1.N) (x : S12288x64.Idx) :
    (iblk1 V c 1 t : Vec Ideal S12288x64 .bf16) x = (V c main_v7 : S12288x64.Idx → EReal) x := by
  obtain ⟨-, -, e10, e11, -⟩ := idx_facts t
  unfold iblk1
  rw [View.read_apply]
  show V c main_v7 _ = V c main_v7 _
  congr 1
  funext a
  apply Fin.ext
  match a with
  | ⟨0, _⟩ => show win1_1.index t (0 : Fin 2) * 12288 + 1 * (x 0).val = (x 0).val; omega
  | ⟨1, _⟩ => show win1_1.index t (1 : Fin 2) * 64 + 1 * (x 1).val = (x 1).val; omega

/-- The feature window's block at point t is rows 256 t … 256 t + 255 of the scaled features. -/
theorem iblk_y (c : Dev nD) (t : Fin cfg1.N) (x : S256x64.Idx) (k : S12288x64.Idx)
    (hk0 : (k 0).val = t.val * 256 + (x 0).val) (hk1 : (k 1).val = (x 1).val) :
    (iblk1 V c 2 t : Vec Ideal S256x64 .f32) x = (V c main_v6 : S12288x64.Idx → EReal) k := by
  obtain ⟨-, -, -, -, e20, e21, -⟩ := idx_facts t
  unfold iblk1
  rw [View.read_apply]
  show V c main_v6 _ = V c main_v6 _
  congr 1
  funext a
  apply Fin.ext
  match a with
  | ⟨0, _⟩ => show win1_2.index t (0 : Fin 2) * 256 + 1 * (x 0).val = (k 0).val; omega
  | ⟨1, _⟩ => show win1_2.index t (1 : Fin 2) * 64 + 1 * (x 1).val = (k 1).val; omega

/-- The degree window's block at point t is rows 256 t … 256 t + 255 of the degree column. -/
theorem iblk_deg (c : Dev nD) (t : Fin cfg1.N) (x : S256x1.Idx) (k : S12288x1.Idx)
    (hk0 : (k 0).val = t.val * 256 + (x 0).val) (hk1 : (k 1).val = (x 1).val) :
    (iblk1 V c 3 t : Vec Ideal S256x1 .f32) x = (V c main_v4 : S12288x1.Idx → EReal) k := by
  obtain ⟨-, -, -, -, -, -, e30, e31, -⟩ := idx_facts t
  unfold iblk1
  rw [View.read_apply]
  show V c main_v4 _ = V c main_v4 _
  congr 1
  funext a
  apply Fin.ext
  match a with
  | ⟨0, _⟩ => show win1_3.index t (0 : Fin 2) * 256 + 1 * (x 0).val = (k 0).val; omega
  | ⟨1, _⟩ => show win1_3.index t (1 : Fin 2) * 1 + 1 * (x 1).val = (k 1).val; omega

/-! ## From blocks to the array -/

/-- What point t writes back is block t of the propagated array. -/
theorem flushed_eq (c : Dev nD) (t : Fin cfg1.N) :
    (dat1 (F := Ideal) V c).flushed 4 t
      = ((cfg1.win 4).blk t).view.read (Elt Ideal) (propArr (V c main_v4) (V c main_arg5) (V c main_v7) (V c main_v6)) := by
  show (cfg1.win 4).cut (grid1.coords t) ((dat1 V c).after 4 t) = _
  rw [after1_4]
  unfold out1_4
  rw [View.canon_unit_zero hz]
  simp only [View.ld_unit_zero (S := S256x12288) hz, View.ld_unit_zero (S := S12288x64) hz, View.ld_unit_zero (S := S256x1) hz, View.ld_unit_zero (S := S256x64) hz]
  obtain ⟨-, -, -, -, -, -, -, -, e40, e41⟩ := idx_facts t
  funext j
  show k1_pay1 (F := Ideal) (iblk1 V c 0 t) (iblk1 V c 1 t) (iblk1 V c 3 t) (iblk1 V c 2 t) j
      = propArr (V c main_v4) (V c main_arg5) (V c main_v7) (V c main_v6) (((cfg1.win 4).blk t).view.emb j)
  refine block_value (iblk1 V c 0 t) (iblk1 V c 1 t) (iblk1 V c 2 t) (iblk1 V c 3 t) (V c main_v4) (V c main_arg5) (V c main_v7)
    (V c main_v6) t.val j (((cfg1.win 4).blk t).view.emb j) ?_ ?_ (iblk_adj V c t) (iblk_y16 V c t) (iblk_y V c t) (iblk_deg V c t)
  · show win1_4.index t (0 : Fin 2) * 256 + 1 * (j 0).val = t.val * 256 + (j 0).val; omega
  · show win1_4.index t (1 : Fin 2) * 64 + 1 * (j 1).val = (j 1).val; omega

/-- An index of the array is in point t's block iff each coordinate is in the block's range on its axis. -/
theorem mem_blk (t : Fin cfg1.N) (i : S12288x64.Idx) :
    i ∈ ((cfg1.win 4).blk t).view.set ↔ ∀ a : Fin 2, win1_4.index t a * S256x64.size a ≤ (i a).val ∧ (i a).val < win1_4.index t a * S256x64.size a + S256x64.size a := by
  show i ∈ ((View.whole main_v8).slice (win1_4.rect t)).set ↔ _
  rw [View.set_slice_whole, Rect.mem_set_unit]
  exact Iff.rfl

/-- Row r is in the block of point r / 256. -/
theorem cover (i : S12288x64.Idx) : ∃ t : Fin cfg1.N, (cfg1.win 4).flush t = true ∧ i ∈ ((cfg1.win 4).blk t).view.set := by
  have hi0 : (i 0).val < 12288 := (i 0).isLt
  have hi1 : (i 1).val < 64 := (i 1).isLt
  have hN : cfg1.N = 48 := N_1
  let t : Fin cfg1.N := ⟨(i 0).val / 256, by rw [hN]; omega⟩
  obtain ⟨-, -, -, -, -, -, -, -, e40, e41⟩ := idx_facts t
  have ht : t.val = (i 0).val / 256 := rfl
  refine ⟨t, flush1_4 t, ?_⟩
  rw [mem_blk]
  intro a
  match a with
  | ⟨0, _⟩ => show win1_4.index t (0 : Fin 2) * 256 ≤ (i 0).val ∧ (i 0).val < win1_4.index t (0 : Fin 2) * 256 + 256; omega
  | ⟨1, _⟩ => show win1_4.index t (1 : Fin 2) * 64 ≤ (i 1).val ∧ (i 1).val < win1_4.index t (1 : Fin 2) * 64 + 64; omega

/-- The output array after the region: the propagated array of the arrays the region finds. -/
theorem propagate_value_arr (c : Dev nD) :
    (dat1 (F := Ideal) V c).arrAt 4 cfg1.N = propArr (V c main_v4) (V c main_arg5) (V c main_v7) (V c main_v6) :=
  (dat1 (F := Ideal) V c).arrAt_eq_of_cover 4 (propArr (V c main_v4) (V c main_arg5) (V c main_v7) (V c main_v6))
    (fun t _ => flushed_eq V c t) cover

/-- The four arrays the region reads, at their literal types: the degree column, the adjacency, the scaled features in the
    narrow format and in the wide one. -/
abbrev degCol (c : Dev nD) : S12288x1.Idx → EReal := V c main_v4
abbrev adjArr (c : Dev nD) : S12288x12288.Idx → EReal := V c main_arg5
abbrev featNarrow (c : Dev nD) : S12288x64.Idx → EReal := V c main_v7
abbrev featWide (c : Dev nD) : S12288x64.Idx → EReal := V c main_v6

/-- The same array, spelt entry by entry over an index's coordinates. -/
theorem propagate_value (c : Dev nD) :
    (dat1 (F := Ideal) V c).arrAt 4 cfg1.N
      = fun i : S12288x64.Idx =>
          degCol V c (ix2 (i 0) (0 : Fin 1))
            * ((∑ k : Fin 12288, adjArr V c (ix2 (i 0) k) * featNarrow V c (ix2 k (i 1))) + featWide V c (ix2 (i 0) (i 1))) :=
  propagate_value_arr V c

/-- The propagated array is the array of its (row, feature) function. -/
theorem propArr_eq_arr2 (d : S12288x1.Idx → EReal) (A : S12288x12288.Idx → EReal) (y16 y : S12288x64.Idx → EReal) :
    propArr d A y16 y = Cert.Gcn.arr2 (propVal d A y16 y) := rfl

/-- The propagated array at (r, f). -/
theorem propArr_ix2 (d : S12288x1.Idx → EReal) (A : S12288x12288.Idx → EReal) (y16 y : S12288x64.Idx → EReal)
    (r : Fin 12288) (f : Fin 64) :
    propArr d A y16 y (ix2 r f)
      = d (ix2 r (0 : Fin 1)) * ((∑ k : Fin 12288, A (ix2 r k) * y16 (ix2 k f)) + y (ix2 r f)) := rfl

end Cert.KernelIdeal.Propagate

end
-- ==== Proof.KernelValue.lean ====
/-
  The kernel program's result as one function of its argument arrays, at the ideal instance.

  The result buffer at the last boundary is the shared normalisation-and-rectifier chain applied to the second
  region's output array. That array holds, at (r, f), d r * ((sum_k A r k * Y16 k f) + Y r f), where at the region's
  entry the column d is the first region's output array, rsqrt ((sum_k A r k) + 1) at row r, A is the argument
  array, and Y = Y16 = d * X with X = H W + b the host's linear layer (the narrowing of Y is the identity on
  extended reals). Substituting gives the factored propagation of Spec.lean.
-/
import proofs.«180802_j54073638257182_1_alg».proof.Proof.KernelHost
import proofs.«180802_j54073638257182_1_alg».proof.Proof.RowSumValue
import proofs.«180802_j54073638257182_1_alg».proof.Proof.PropagateValue
import proofs.«180802_j54073638257182_1_alg».proof.Proof.Spec

noncomputable section

open scoped BigOperators

namespace Cert.KernelIdeal.Whole

open Cert.KernelIdeal Cert.KernelIdeal.Gen Idealize.ShloMosaic Idealize.ShloMosaic.TcCoe Idealize.ShloMosaic.ValueIdx Idealize.SL.Sem

variable (m : (ℓ : Loc nD τ sig) → Buf (Elt Ideal) ℓ) (ρ : Dev nD → PrngReg)

/-- The adjacency argument, the linear layer of the three other arguments. -/
abbrev adj (c : Dev nD) : Cert.Gcn.S12288x12288.Idx → EReal := m ((c : Thread nD τ).loc main_arg5)
abbrev feat (c : Dev nD) : Fin 12288 → Fin 64 → EReal :=
  Cert.Gcn.lin (m ((c : Thread nD τ).loc main_arg0)) (m ((c : Thread nD τ).loc main_arg1)) (m ((c : Thread nD τ).loc main_arg2))

/-- At the second region's entry the column d holds the degree factors. -/
theorem d_eq (c : Dev nD) (r : Fin 12288) :
    (V3 m ρ c main_v4 : FVec Ideal S12288x1 .f32) (ix2 r (0 : Fin 1)) = Cert.Gcn.deg (adj m c) r := by
  rw [Cert.KernelIdeal.Host.v3_v4, Cert.KernelIdeal.RowSum.rowsum_value, Cert.KernelIdeal.Host.v1_arg5]
  rfl

/-- … the wide features hold d * X … -/
theorem y_eq (c : Dev nD) (k : Fin 12288) (f : Fin 64) :
    (V3 m ρ c main_v6 : FVec Ideal S12288x64 .f32) (ix2 k f) = Cert.Gcn.deg (adj m c) k * feat m c k f := by
  rw [Cert.KernelIdeal.Host.v3_v6, d_eq, Cert.KernelIdeal.Host.x_eq]
  rfl

/-- … and the narrow copy the same. -/
theorem y16_eq (c : Dev nD) (k : Fin 12288) (f : Fin 64) :
    (V3 m ρ c main_v7 : FVec Ideal S12288x64 .bf16) (ix2 k f) = Cert.Gcn.deg (adj m c) k * feat m c k f := by
  rw [Cert.KernelIdeal.Host.v3_v7, y_eq]

/-- The second region's output array is the factored propagation of the linear layer. -/
theorem out_eq (c : Dev nD) :
    W4 m ρ c (Proc.devRef .tc main_v8) = Cert.Gcn.arr2 (Cert.Gcn.prop (adj m c) (feat m c)) := by
  rw [Cert.KernelIdeal.Host.w4_v8, Cert.KernelIdeal.Propagate.propagate_value_arr]
  funext i
  obtain ⟨r, f, rfl⟩ : ∃ (r : Fin 12288) (f : Fin 64), i = ix2 r f := ⟨i 0, i 1, eq_ix2 i⟩
  rw [Cert.KernelIdeal.Propagate.propArr_ix2, Cert.Gcn.arr2_ix2, d_eq, y_eq, Cert.KernelIdeal.Host.v3_arg5]
  unfold Cert.Gcn.prop
  refine congrArg (fun s => Cert.Gcn.deg (adj m c) r * (s + Cert.Gcn.deg (adj m c) r * feat m c r f)) ?_
  exact Finset.sum_congr rfl fun k _ => by rw [y16_eq]

/-- The result buffer: the shared chain applied to the propagation. -/
theorem result_eq (c : Dev nD) :
    W8 m ρ c (Proc.devRef .tc main_v28)
      = Cert.Gcn.tail (Cert.Gcn.arr2 (Cert.Gcn.prop (adj m c) (feat m c)))
          (m ((c : Thread nD τ).loc main_arg3)) (m ((c : Thread nD τ).loc main_arg4)) := by
  rw [Cert.KernelIdeal.Host.out_tail, out_eq]

end Cert.KernelIdeal.Whole

end
-- ==== Proof.RefTerm.lean ====
/-
  The reference's propagated features as ONE closed function of its argument arrays: the index pairs (k, k) built from
  an iota with jnp's wrap-around of negative indices; the accumulating scatter of a one at each pair into A (this is
  A + I); the row sums, their inverse square roots d; the normalised adjacency (d r * (A + I) r k) * d k by two
  broadcasts and two products; the linear layer H W + b; and the product of the normalised adjacency with it.
  Stated over the printed operations, so that the run's term is this by unfolding and the reading at an index
  (RefValue.lean) is done once, here.
-/
import proofs.«180802_j54073638257182_1_alg».proof.ReferenceIdeal
import proofs.«180802_j54073638257182_1_alg».proof.Proof.Gen.ReferenceIdeal
import Idealize.ShloMosaic.PureOps.Ideal

noncomputable section

namespace Cert.ReferenceIdeal.Term

open Cert.ReferenceIdeal Idealize.ShloMosaic
open Cert.ReferenceIdeal.Facts₀

/-- One column of index words: the iota, a negative word counted from the end. -/
def wrapIota : IVec S12288 32 :=
  let v0 : IVec S12288 32 := iotaInDim S12288 32 0
  let c : IVec S_ 32 := constantI S_ 32 0#32
  let v1 : IVec S12288 32 := broadcastInDim S12288 ![] bcast_S_S12288 c
  let v2 : IVec S12288 1 := cmpi .slt v0 v1
  let c_0 : IVec S_ 32 := constantI S_ 32 12288#32
  let v3 : IVec S12288 32 := broadcastInDim S12288 ![] bcast_S_S12288 c_0
  let v4 : IVec S12288 32 := addi v0 v3
  select v2 v4 v0

/-- The scatter's index array [12288, 2]: row k holds the pair (k, k). -/
def diagIdx : IVec S12288x2 32 :=
  let v11 : IVec S12288x1 32 := broadcastInDim S12288x1 ![0] bcast_S12288_S12288x1_0 wrapIota
  let v12 : IVec S12288x1 32 := broadcastInDim S12288x1 ![0] bcast_S12288_S12288x1_0 wrapIota
  concatenate S12288x2 1 [⟨S12288x1, v11⟩, ⟨S12288x1, v12⟩] concatenates_S12288x1_S12288x1_S12288x2_d1

/-- A + I: a one accumulated at every pair (k, k). -/
def adjPlusI (A : FVec Ideal S12288x12288 .f32) : FVec Ideal S12288x12288 .f32 :=
  let cst : FVec Ideal S_ .f32 := constant S_ .f32 0x3F800000#32
  let v14 : FVec Ideal S12288 .f32 := broadcastInDim S12288 ![] bcast_S_S12288 cst
  Host.scatterAdd scatter_S12288x12288_S12288x2_S12288_n_01_01_1 A diagIdx v14

/-- The inverse square roots of A + I's row sums. -/
def rdeg (A : FVec Ideal S12288x12288 .f32) : FVec Ideal S12288 .f32 :=
  let cst_3 : FVec Ideal S_ .f32 := constant S_ .f32 0x00000000#32
  let v16 : FVec Ideal S12288 .f32 := Host.reduceAdd (adjPlusI A) cst_3 reducesTo_S12288x12288_S12288_d1 h_S_
  Host.rsqrt v16

/-- The normalised adjacency. -/
def normAdj (A : FVec Ideal S12288x12288 .f32) : FVec Ideal S12288x12288 .f32 :=
  let v18 : FVec Ideal S12288x1 .f32 := broadcastInDim S12288x1 ![0] bcast_S12288_S12288x1_0 (rdeg A)
  let v19 : FVec Ideal S12288x12288 .f32 := broadcastInDim S12288x12288 ![0, 1] bcast_S12288x1_S12288x12288_0_1 v18
  let v20 : FVec Ideal S12288x12288 .f32 := mulf v19 (adjPlusI A)
  let v21 : FVec Ideal S1x12288 .f32 := broadcastInDim S1x12288 ![1] bcast_S12288_S1x12288_1 (rdeg A)
  let v22 : FVec Ideal S12288x12288 .f32 := broadcastInDim S12288x12288 ![0, 1] bcast_S1x12288_S12288x12288_0_1 v21
  mulf v20 v22

/-- The linear layer. -/
def linear (H : FVec Ideal S12288x64 .f32) (W : FVec Ideal S64x64 .f32) (b : FVec Ideal S64 .f32) : FVec Ideal S12288x64 .f32 :=
  let v24 : FVec Ideal S12288x64 .f32 := Host.dotGeneral dot_S12288x64_S64x64_S12288x64_1_0_0_1_n_n none H W
  let v25 : FVec Ideal S1x64 .f32 := broadcastInDim S1x64 ![1] bcast_S64_S1x64_1 b
  let v26 : FVec Ideal S12288x64 .f32 := broadcastInDim S12288x64 ![0, 1] bcast_S1x64_S12288x64_0_1 v25
  addf v24 v26

/-- The reference's propagated features (its value %28). -/
def refOut (H : FVec Ideal S12288x64 .f32) (W : FVec Ideal S64x64 .f32) (b : FVec Ideal S64 .f32)
    (A : FVec Ideal S12288x12288 .f32) : FVec Ideal S12288x64 .f32 :=
  Host.dotGeneral dot_S12288x12288_S12288x64_S12288x64_1_0_0_1_n_n none (normAdj A) (linear H W b)

end Cert.ReferenceIdeal.Term

end
-- ==== Proof.RefRun.lean ====
/-
  The reference's run, read back as one closed term.

  @main is a straight line of host operations: an iota and its wrap-around of negative words (twice), the two index
  columns and their concatenation, the accumulating scatter of a one at every pair (k, k) into A (this is A + I), the
  row sums, their inverse square roots d, the normalised adjacency (d r * (A + I) r k) * d k, the linear layer
  H W + b, the product of the two, and then the shared tail: the column means and biased column variances over the
  rows, the normalisation with gamma and beta, and the leaky rectifier. The three functions outlined in the module
  (the variance, which itself calls a select-with-broadcast, and the rectifier, which calls a select) are listed at
  their calls over the buffers the calls name. Every fair execution ends with each buffer at the fold of these
  operations over the launch contents; the fold at the result is the tail applied to the propagated features of
  RefTerm.lean, and the arguments are left as they were.
-/
import proofs.«180802_j54073638257182_1_alg».proof.ReferenceIdeal
import proofs.«180802_j54073638257182_1_alg».proof.Proof.Gen.ReferenceIdeal
import proofs.«180802_j54073638257182_1_alg».proof.Proof.RefTerm
import proofs.«180802_j54073638257182_1_alg».proof.Proof.Spec
import Idealize.ShloMosaic.Lib.StableHlo.Run
import Idealize.ShloMosaic.PureOps.Ideal

noncomputable section

namespace Cert.ReferenceIdeal.Value

open Cert.ReferenceIdeal Idealize.ShloMosaic Idealize.ShloMosaic.TcCoe Idealize.SL.Sem Idealize.ShloMosaic.StableHlo
open Cert.ReferenceIdeal.Facts₀

variable {F : FTy → Type} [FloatOps F]

/-- @main's 87 operations in order, the three outlined functions listed at their calls: thirty-five up to the
    propagated features (the product of the normalised adjacency with the linear layer), six for the column means and
    the zero correction, the variance's twenty-two (the last three the select-with-broadcast it calls), seventeen for the
    normalisation, and the rectifier's seven (the last the select it calls). -/
abbrev ops : List (HloOp τ sig (Elt F)) :=
  [ nullary main_v0 (iotaInDim S12288 32 0),
    nullary main_c (constantI S_ 32 0#32),
    unary main_c main_v1 (broadcastInDim S12288 ![] bcast_S_S12288 : (⟨S_, .i32⟩ : BufTy).Contents (Elt F) → (⟨S12288, .i32⟩ : BufTy).Contents (Elt F)),
    binary main_v0 main_v1 main_v2 (cmpi .slt : (⟨S12288, .i32⟩ : BufTy).Contents (Elt F) → (⟨S12288, .i32⟩ : BufTy).Contents (Elt F) → (⟨S12288, .i1⟩ : BufTy).Contents (Elt F)),
    nullary main_c_0 (constantI S_ 32 12288#32),
    unary main_c_0 main_v3 (broadcastInDim S12288 ![] bcast_S_S12288 : (⟨S_, .i32⟩ : BufTy).Contents (Elt F) → (⟨S12288, .i32⟩ : BufTy).Contents (Elt F)),
    binary main_v0 main_v3 main_v4 (addi : (⟨S12288, .i32⟩ : BufTy).Contents (Elt F) → (⟨S12288, .i32⟩ : BufTy).Contents (Elt F) → (⟨S12288, .i32⟩ : BufTy).Contents (Elt F)),
    ternary main_v2 main_v4 main_v0 main_v5 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    nullary main_c_1 (constantI S_ 32 0#32),
    unary main_c_1 main_v6 (broadcastInDim S12288 ![] bcast_S_S12288 : (⟨S_, .i32⟩ : BufTy).Contents (Elt F) → (⟨S12288, .i32⟩ : BufTy).Contents (Elt F)),
    binary main_v0 main_v6 main_v7 (cmpi .slt : (⟨S12288, .i32⟩ : BufTy).Contents (Elt F) → (⟨S12288, .i32⟩ : BufTy).Contents (Elt F) → (⟨S12288, .i1⟩ : BufTy).Contents (Elt F)),
    nullary main_c_2 (constantI S_ 32 12288#32),
    unary main_c_2 main_v8 (broadcastInDim S12288 ![] bcast_S_S12288 : (⟨S_, .i32⟩ : BufTy).Contents (Elt F) → (⟨S12288, .i32⟩ : BufTy).Contents (Elt F)),
    binary main_v0 main_v8 main_v9 (addi : (⟨S12288, .i32⟩ : BufTy).Contents (Elt F) → (⟨S12288, .i32⟩ : BufTy).Contents (Elt F) → (⟨S12288, .i32⟩ : BufTy).Contents (Elt F)),
    ternary main_v7 main_v9 main_v0 main_v10 (select : (⟨S12288, .i1⟩ : BufTy).Contents (Elt F) → (⟨S12288, .i32⟩ : BufTy).Contents (Elt F) → (⟨S12288, .i32⟩ : BufTy).Contents (Elt F) → (⟨S12288, .i32⟩ : BufTy).Contents (Elt F)),
    unary main_v5 main_v11 (broadcastInDim S12288x1 ![0] bcast_S12288_S12288x1_0 : (⟨S12288, .i32⟩ : BufTy).Contents (Elt F) → (⟨S12288x1, .i32⟩ : BufTy).Contents (Elt F)),
    unary main_v10 main_v12 (broadcastInDim S12288x1 ![0] bcast_S12288_S12288x1_0 : (⟨S12288, .i32⟩ : BufTy).Contents (Elt F) → (⟨S12288x1, .i32⟩ : BufTy).Contents (Elt F)),
    binary main_v11 main_v12 main_v13 ((fun a b => concatenate S12288x2 1 [⟨S12288x1, a⟩, ⟨S12288x1, b⟩] concatenates_S12288x1_S12288x1_S12288x2_d1) : (⟨S12288x1, .i32⟩ : BufTy).Contents (Elt F) → (⟨S12288x1, .i32⟩ : BufTy).Contents (Elt F) → (⟨S12288x2, .i32⟩ : BufTy).Contents (Elt F)),
    nullary main_cst (constant S_ .f32 0x3F800000#32),
    unary main_cst main_v14 (broadcastInDim S12288 ![] bcast_S_S12288 : (⟨S_, .f32⟩ : BufTy).Contents (Elt F) → (⟨S12288, .f32⟩ : BufTy).Contents (Elt F)),
    ternary main_arg5 main_v13 main_v14 main_v15 ((fun x i u => Host.scatterAdd scatter_S12288x12288_S12288x2_S12288_n_01_01_1 x i u) : (⟨S12288x12288, .f32⟩ : BufTy).Contents (Elt F) → (⟨S12288x2, .i32⟩ : BufTy).Contents (Elt F) → (⟨S12288, .f32⟩ : BufTy).Contents (Elt F) → (⟨S12288x12288, .f32⟩ : BufTy).Contents (Elt F)),
    nullary main_cst_3 (constant S_ .f32 0x00000000#32),
    binary main_v15 main_cst_3 main_v16 ((fun x v => Host.reduceAdd x v reducesTo_S12288x12288_S12288_d1 h_S_) : (⟨S12288x12288, .f32⟩ : BufTy).Contents (Elt F) → (⟨S_, .f32⟩ : BufTy).Contents (Elt F) → (⟨S12288, .f32⟩ : BufTy).Contents (Elt F)),
    unary main_v16 main_v17 (Host.rsqrt : (⟨S12288, .f32⟩ : BufTy).Contents (Elt F) → (⟨S12288, .f32⟩ : BufTy).Contents (Elt F)),
    unary main_v17 main_v18 (broadcastInDim S12288x1 ![0] bcast_S12288_S12288x1_0 : (⟨S12288, .f32⟩ : BufTy).Contents (Elt F) → (⟨S12288x1, .f32⟩ : BufTy).Contents (Elt F)),
    unary main_v18 main_v19 (broadcastInDim S12288x12288 ![0, 1] bcast_S12288x1_S12288x12288_0_1 : (⟨S12288x1, .f32⟩ : BufTy).Contents (Elt F) → (⟨S12288x12288, .f32⟩ : BufTy).Contents (Elt F)),
    binary main_v19 main_v15 main_v20 (mulf : (⟨S12288x12288, .f32⟩ : BufTy).Contents (Elt F) → (⟨S12288x12288, .f32⟩ : BufTy).Contents (Elt F) → (⟨S12288x12288, .f32⟩ : BufTy).Contents (Elt F)),
    unary main_v17 main_v21 (broadcastInDim S1x12288 ![1] bcast_S12288_S1x12288_1 : (⟨S12288, .f32⟩ : BufTy).Contents (Elt F) → (⟨S1x12288, .f32⟩ : BufTy).Contents (Elt F)),
    unary main_v21 main_v22 (broadcastInDim S12288x12288 ![0, 1] bcast_S1x12288_S12288x12288_0_1 : (⟨S1x12288, .f32⟩ : BufTy).Contents (Elt F) → (⟨S12288x12288, .f32⟩ : BufTy).Contents (Elt F)),
    binary main_v20 main_v22 main_v23 (mulf : (⟨S12288x12288, .f32⟩ : BufTy).Contents (Elt F) → (⟨S12288x12288, .f32⟩ : BufTy).Contents (Elt F) → (⟨S12288x12288, .f32⟩ : BufTy).Contents (Elt F)),
    binary main_arg0 main_arg1 main_v24 ((fun l r => Host.dotGeneral dot_S12288x64_S64x64_S12288x64_1_0_0_1_n_n none l r) : (⟨S12288x64, .f32⟩ : BufTy).Contents (Elt F) → (⟨S64x64, .f32⟩ : BufTy).Contents (Elt F) → (⟨S12288x64, .f32⟩ : BufTy).Contents (Elt F)),
    unary main_arg2 main_v25 (broadcastInDim S1x64 ![1] bcast_S64_S1x64_1 : (⟨S64, .f32⟩ : BufTy).Contents (Elt F) → (⟨S1x64, .f32⟩ : BufTy).Contents (Elt F)),
    unary main_v25 main_v26 (broadcastInDim S12288x64 ![0, 1] bcast_S1x64_S12288x64_0_1 : (⟨S1x64, .f32⟩ : BufTy).Contents (Elt F) → (⟨S12288x64, .f32⟩ : BufTy).Contents (Elt F)),
    binary main_v24 main_v26 main_v27 (addf : (⟨S12288x64, .f32⟩ : BufTy).Contents (Elt F) → (⟨S12288x64, .f32⟩ : BufTy).Contents (Elt F) → (⟨S12288x64, .f32⟩ : BufTy).Contents (Elt F)),
    binary main_v23 main_v27 main_v28 ((fun l r => Host.dotGeneral dot_S12288x12288_S12288x64_S12288x64_1_0_0_1_n_n none l r) : (⟨S12288x12288, .f32⟩ : BufTy).Contents (Elt F) → (⟨S12288x64, .f32⟩ : BufTy).Contents (Elt F) → (⟨S12288x64, .f32⟩ : BufTy).Contents (Elt F)),
    nullary main_cst_4 (constant S_ .f32 0x00000000#32),
    binary main_v28 main_cst_4 main_v29 ((fun x v => Host.reduceAdd x v reducesTo_S12288x64_S64_d0 h_S_) : (⟨S12288x64, .f32⟩ : BufTy).Contents (Elt F) → (⟨S_, .f32⟩ : BufTy).Contents (Elt F) → (⟨S64, .f32⟩ : BufTy).Contents (Elt F)),
    nullary main_cst_5 (constant S_ .f32 0x46400000#32),
    unary main_cst_5 main_v30 (broadcastInDim S64 ![] bcast_S_S64 : (⟨S_, .f32⟩ : BufTy).Contents (Elt F) → (⟨S64, .f32⟩ : BufTy).Contents (Elt F)),
    binary main_v29 main_v30 main_v31 (Host.divf : (⟨S64, .f32⟩ : BufTy).Contents (Elt F) → (⟨S64, .f32⟩ : BufTy).Contents (Elt F) → (⟨S64, .f32⟩ : BufTy).Contents (Elt F)),
    nullary main_c_6 (constantI S_ 32 0#32),
    TRef.nullary (.of main_call0_cst : TRef sig ⟨S_, .f32⟩) (constant S_ .f32 0x00000000#32),
    TRef.binary (.of main_v28 : TRef sig ⟨S12288x64, .f32⟩) (.of main_call0_cst : TRef sig ⟨S_, .f32⟩) (.of main_call0_v0 : TRef sig ⟨S64, .f32⟩) (fun x v => Host.reduceAdd x v reducesTo_S12288x64_S64_d0 h_S_),
    TRef.unary (.of main_call0_v0 : TRef sig ⟨S64, .f32⟩) (.of main_call0_v1 : TRef sig ⟨S1x64, .f32⟩) (broadcastInDim S1x64 ![1] bcast_S64_S1x64_1),
    TRef.nullary (.of main_call0_cst_0 : TRef sig ⟨S_, .f32⟩) (constant S_ .f32 0x46400000#32),
    TRef.unary (.of main_call0_cst_0 : TRef sig ⟨S_, .f32⟩) (.of main_call0_v2 : TRef sig ⟨S1x64, .f32⟩) (broadcastInDim S1x64 ![] bcast_S_S1x64),
    TRef.binary (.of main_call0_v1 : TRef sig ⟨S1x64, .f32⟩) (.of main_call0_v2 : TRef sig ⟨S1x64, .f32⟩) (.of main_call0_v3 : TRef sig ⟨S1x64, .f32⟩) Host.divf,
    TRef.unary (.of main_call0_v3 : TRef sig ⟨S1x64, .f32⟩) (.of main_call0_v4 : TRef sig ⟨S12288x64, .f32⟩) (broadcastInDim S12288x64 ![0, 1] bcast_S1x64_S12288x64_0_1),
    TRef.binary (.of main_v28 : TRef sig ⟨S12288x64, .f32⟩) (.of main_call0_v4 : TRef sig ⟨S12288x64, .f32⟩) (.of main_call0_v5 : TRef sig ⟨S12288x64, .f32⟩) subf,
    TRef.binary (.of main_call0_v5 : TRef sig ⟨S12288x64, .f32⟩) (.of main_call0_v5 : TRef sig ⟨S12288x64, .f32⟩) (.of main_call0_v6 : TRef sig ⟨S12288x64, .f32⟩) mulf,
    TRef.unary (.of main_c_6 : TRef sig ⟨S_, .i32⟩) (.of main_call0_v7 : TRef sig ⟨S_, .f32⟩) (sitofp .f32),
    TRef.nullary (.of main_call0_cst_1 : TRef sig ⟨S_, .f32⟩) (constant S_ .f32 0x46400000#32),
    TRef.binary (.of main_call0_cst_1 : TRef sig ⟨S_, .f32⟩) (.of main_call0_v7 : TRef sig ⟨S_, .f32⟩) (.of main_call0_v8 : TRef sig ⟨S_, .f32⟩) subf,
    TRef.nullary (.of main_call0_cst_2 : TRef sig ⟨S_, .f32⟩) (constant S_ .f32 0x00000000#32),
    TRef.binary (.of main_call0_v6 : TRef sig ⟨S12288x64, .f32⟩) (.of main_call0_cst_2 : TRef sig ⟨S_, .f32⟩) (.of main_call0_v9 : TRef sig ⟨S64, .f32⟩) (fun x v => Host.reduceAdd x v reducesTo_S12288x64_S64_d0 h_S_),
    TRef.unary (.of main_call0_v8 : TRef sig ⟨S_, .f32⟩) (.of main_call0_v10 : TRef sig ⟨S64, .f32⟩) (broadcastInDim S64 ![] bcast_S_S64),
    TRef.binary (.of main_call0_v9 : TRef sig ⟨S64, .f32⟩) (.of main_call0_v10 : TRef sig ⟨S64, .f32⟩) (.of main_call0_v11 : TRef sig ⟨S64, .f32⟩) Host.divf,
    TRef.nullary (.of main_call0_cst_3 : TRef sig ⟨S_, .f32⟩) (constant S_ .f32 0x00000000#32),
    TRef.binary (.of main_call0_v8 : TRef sig ⟨S_, .f32⟩) (.of main_call0_cst_3 : TRef sig ⟨S_, .f32⟩) (.of main_call0_v12 : TRef sig ⟨S_, .i1⟩) (cmpf .ogt),
    TRef.nullary (.of main_call0_cst_4 : TRef sig ⟨S_, .f32⟩) (constant S_ .f32 0x7FC00000#32),
    TRef.unary (.of main_call0_cst_4 : TRef sig ⟨S_, .f32⟩) (.of main_call0_call0_v0 : TRef sig ⟨S_, .f32⟩) id,
    TRef.unary (.of main_call0_call0_v0 : TRef sig ⟨S_, .f32⟩) (.of main_call0_call0_v1 : TRef sig ⟨S64, .f32⟩) (broadcastInDim S64 ![] bcast_S_S64),
    TRef.ternary (.of main_call0_v12 : TRef sig ⟨S_, .i1⟩) (.of main_call0_v11 : TRef sig ⟨S64, .f32⟩) (.of main_call0_call0_v1 : TRef sig ⟨S64, .f32⟩) (.of main_v32 : TRef sig ⟨S64, .f32⟩) (fun p a b => select (broadcastInDim S64 ![] bcast_S_S64 p) a b),
    unary main_v31 main_v33 (broadcastInDim S1x64 ![1] bcast_S64_S1x64_1 : (⟨S64, .f32⟩ : BufTy).Contents (Elt F) → (⟨S1x64, .f32⟩ : BufTy).Contents (Elt F)),
    unary main_v33 main_v34 (broadcastInDim S12288x64 ![0, 1] bcast_S1x64_S12288x64_0_1 : (⟨S1x64, .f32⟩ : BufTy).Contents (Elt F) → (⟨S12288x64, .f32⟩ : BufTy).Contents (Elt F)),
    binary main_v28 main_v34 main_v35 (subf : (⟨S12288x64, .f32⟩ : BufTy).Contents (Elt F) → (⟨S12288x64, .f32⟩ : BufTy).Contents (Elt F) → (⟨S12288x64, .f32⟩ : BufTy).Contents (Elt F)),
    nullary main_cst_7 (constant S_ .f32 0x3727C5AC#32),
    unary main_cst_7 main_v36 (broadcastInDim S64 ![] bcast_S_S64 : (⟨S_, .f32⟩ : BufTy).Contents (Elt F) → (⟨S64, .f32⟩ : BufTy).Contents (Elt F)),
    binary main_v32 main_v36 main_v37 (addf : (⟨S64, .f32⟩ : BufTy).Contents (Elt F) → (⟨S64, .f32⟩ : BufTy).Contents (Elt F) → (⟨S64, .f32⟩ : BufTy).Contents (Elt F)),
    unary main_v37 main_v38 (Host.rsqrt : (⟨S64, .f32⟩ : BufTy).Contents (Elt F) → (⟨S64, .f32⟩ : BufTy).Contents (Elt F)),
    unary main_v38 main_v39 (broadcastInDim S1x64 ![1] bcast_S64_S1x64_1 : (⟨S64, .f32⟩ : BufTy).Contents (Elt F) → (⟨S1x64, .f32⟩ : BufTy).Contents (Elt F)),
    unary main_v39 main_v40 (broadcastInDim S12288x64 ![0, 1] bcast_S1x64_S12288x64_0_1 : (⟨S1x64, .f32⟩ : BufTy).Contents (Elt F) → (⟨S12288x64, .f32⟩ : BufTy).Contents (Elt F)),
    binary main_v35 main_v40 main_v41 (mulf : (⟨S12288x64, .f32⟩ : BufTy).Contents (Elt F) → (⟨S12288x64, .f32⟩ : BufTy).Contents (Elt F) → (⟨S12288x64, .f32⟩ : BufTy).Contents (Elt F)),
    unary main_arg3 main_v42 (broadcastInDim S1x64 ![1] bcast_S64_S1x64_1 : (⟨S64, .f32⟩ : BufTy).Contents (Elt F) → (⟨S1x64, .f32⟩ : BufTy).Contents (Elt F)),
    unary main_v42 main_v43 (broadcastInDim S12288x64 ![0, 1] bcast_S1x64_S12288x64_0_1 : (⟨S1x64, .f32⟩ : BufTy).Contents (Elt F) → (⟨S12288x64, .f32⟩ : BufTy).Contents (Elt F)),
    binary main_v41 main_v43 main_v44 (mulf : (⟨S12288x64, .f32⟩ : BufTy).Contents (Elt F) → (⟨S12288x64, .f32⟩ : BufTy).Contents (Elt F) → (⟨S12288x64, .f32⟩ : BufTy).Contents (Elt F)),
    unary main_arg4 main_v45 (broadcastInDim S1x64 ![1] bcast_S64_S1x64_1 : (⟨S64, .f32⟩ : BufTy).Contents (Elt F) → (⟨S1x64, .f32⟩ : BufTy).Contents (Elt F)),
    unary main_v45 main_v46 (broadcastInDim S12288x64 ![0, 1] bcast_S1x64_S12288x64_0_1 : (⟨S1x64, .f32⟩ : BufTy).Contents (Elt F) → (⟨S12288x64, .f32⟩ : BufTy).Contents (Elt F)),
    binary main_v44 main_v46 main_v47 (addf : (⟨S12288x64, .f32⟩ : BufTy).Contents (Elt F) → (⟨S12288x64, .f32⟩ : BufTy).Contents (Elt F) → (⟨S12288x64, .f32⟩ : BufTy).Contents (Elt F)),
    nullary main_cst_8 (constant S_ .f32 0x3C23D70A#32),
    TRef.nullary (.of main_call1_cst : TRef sig ⟨S_, .f32⟩) (constant S_ .f32 0x00000000#32),
    TRef.unary (.of main_call1_cst : TRef sig ⟨S_, .f32⟩) (.of main_call1_v0 : TRef sig ⟨S12288x64, .f32⟩) (broadcastInDim S12288x64 ![] bcast_S_S12288x64),
    TRef.binary (.of main_v47 : TRef sig ⟨S12288x64, .f32⟩) (.of main_call1_v0 : TRef sig ⟨S12288x64, .f32⟩) (.of main_call1_v1 : TRef sig ⟨S12288x64, .i1⟩) (cmpf .oge),
    TRef.unary (.of main_cst_8 : TRef sig ⟨S_, .f32⟩) (.of main_call1_v2 : TRef sig ⟨S_, .f32⟩) id,
    TRef.unary (.of main_call1_v2 : TRef sig ⟨S_, .f32⟩) (.of main_call1_v3 : TRef sig ⟨S12288x64, .f32⟩) (broadcastInDim S12288x64 ![] bcast_S_S12288x64),
    TRef.binary (.of main_call1_v3 : TRef sig ⟨S12288x64, .f32⟩) (.of main_v47 : TRef sig ⟨S12288x64, .f32⟩) (.of main_call1_v4 : TRef sig ⟨S12288x64, .f32⟩) mulf,
    TRef.ternary (.of main_call1_v1 : TRef sig ⟨S12288x64, .i1⟩) (.of main_v47 : TRef sig ⟨S12288x64, .f32⟩) (.of main_call1_v4 : TRef sig ⟨S12288x64, .f32⟩) (.of main_v48 : TRef sig ⟨S12288x64, .f32⟩) select ]

-- eighty-seven binds re-associated: the rewrite under the chain recurses once per statement
set_option maxRecDepth 4096 in
set_option maxHeartbeats 4000000 in
/-- @main is that straight line: its two windows and the outlined functions unfolded at their calls, both sides are one
    chain of steps once sequencing is re-associated. -/
theorem main_eq (c : Dev nD) : main (F := F) c = seq ops := by
  simp only [main, main_part0, main_part1, fn_var.body, fn_where.body, fn_leaky_relu.body, fn_where_0.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., nullary_bufs_sub .., unary_bufs_sub .., binary_bufs_sub .., nullary_bufs_sub ..,
    unary_bufs_sub .., binary_bufs_sub .., ternary_bufs_sub .., unary_bufs_sub .., unary_bufs_sub .., binary_bufs_sub ..,
    nullary_bufs_sub .., unary_bufs_sub .., ternary_bufs_sub .., nullary_bufs_sub .., binary_bufs_sub .., unary_bufs_sub ..,
    unary_bufs_sub .., unary_bufs_sub .., binary_bufs_sub .., unary_bufs_sub .., unary_bufs_sub .., binary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., nullary_bufs_sub .., nullary_bufs_sub ..,
    binary_bufs_sub .., unary_bufs_sub .., nullary_bufs_sub .., unary_bufs_sub .., binary_bufs_sub .., unary_bufs_sub ..,
    binary_bufs_sub .., binary_bufs_sub .., unary_bufs_sub .., nullary_bufs_sub .., binary_bufs_sub .., nullary_bufs_sub ..,
    binary_bufs_sub .., unary_bufs_sub .., binary_bufs_sub .., nullary_bufs_sub .., binary_bufs_sub .., nullary_bufs_sub ..,
    unary_bufs_sub .., unary_bufs_sub .., ternary_bufs_sub .., unary_bufs_sub .., unary_bufs_sub .., binary_bufs_sub ..,
    nullary_bufs_sub .., unary_bufs_sub .., binary_bufs_sub .., unary_bufs_sub .., unary_bufs_sub .., unary_bufs_sub ..,
    binary_bufs_sub .., unary_bufs_sub .., unary_bufs_sub .., binary_bufs_sub .., unary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub ..⟩

set_option maxRecDepth 4096 in
set_option maxHeartbeats 4000000 in
/-- For any float values, from any memory with zero counters: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.reduceAdd Host.scatterAdd Ideal.matmul Host.divf Host.rsqrt concatenate in
set_option maxRecDepth 16384 in
set_option maxHeartbeats 4000000 in
/-- The fold at the result buffer is the shared tail applied to the propagated features, by computation: the fold
    unrolled, each operation's result decides whether the buffer read is the one it writes, and the typed references'
    casts are the identity at these literal references. The sums, the scatter, the matrix product, the quotient, the
    inverse square root and the concatenation are kept folded meanwhile: the equation never looks inside them, and their
    bodies range over all 12288 rows. -/
theorem out_eq (V : Valuation τ sig (Elt Ideal)) :
    after (ops (F := Ideal)) V (main_v48 : DevRef τ sig)
      = Cert.Gcn.tail
          (Cert.ReferenceIdeal.Term.refOut (V (main_arg0 : DevRef τ sig)) (V (main_arg1 : DevRef τ sig))
            (V (main_arg2 : DevRef τ sig)) (V (main_arg5 : DevRef τ sig)))
          (V (main_arg3 : DevRef τ sig)) (V (main_arg4 : DevRef τ sig)) := by
  simp only [after_cons, after_nil]
  rfl

set_option maxRecDepth 16384 in
/-- No operation writes argument 0: it is left as it was. -/
theorem arg0_eq (V : Valuation τ sig (Elt F)) :
    after ops V (main_arg0 : DevRef τ sig) = V (main_arg0 : DevRef τ sig) := by
  simp only [after_cons, after_nil]
  rfl

set_option maxRecDepth 16384 in
/-- No operation writes argument 1: it is left as it was. -/
theorem arg1_eq (V : Valuation τ sig (Elt F)) :
    after ops V (main_arg1 : DevRef τ sig) = V (main_arg1 : DevRef τ sig) := by
  simp only [after_cons, after_nil]
  rfl

set_option maxRecDepth 16384 in
/-- No operation writes argument 2: it is left as it was. -/
theorem arg2_eq (V : Valuation τ sig (Elt F)) :
    after ops V (main_arg2 : DevRef τ sig) = V (main_arg2 : DevRef τ sig) := by
  simp only [after_cons, after_nil]
  rfl

set_option maxRecDepth 16384 in
/-- No operation writes argument 3: it is left as it was. -/
theorem arg3_eq (V : Valuation τ sig (Elt F)) :
    after ops V (main_arg3 : DevRef τ sig) = V (main_arg3 : DevRef τ sig) := by
  simp only [after_cons, after_nil]
  rfl

set_option maxRecDepth 16384 in
/-- No operation writes argument 4: it is left as it was. -/
theorem arg4_eq (V : Valuation τ sig (Elt F)) :
    after ops V (main_arg4 : DevRef τ sig) = V (main_arg4 : DevRef τ sig) := by
  simp only [after_cons, after_nil]
  rfl

set_option maxRecDepth 16384 in
/-- No operation writes argument 5: it is left as it was. -/
theorem arg5_eq (V : Valuation τ sig (Elt F)) :
    after ops V (main_arg5 : DevRef τ sig) = V (main_arg5 : DevRef τ sig) := by
  simp only [after_cons, after_nil]
  rfl

/-- At the ideal instance, from any memory with zero counters: every weakly fair execution of @main terminates with the
    result buffer at the shared tail applied to the propagated features of the arguments' launch contents, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v48)
        = Cert.Gcn.tail
            (Cert.ReferenceIdeal.Term.refOut (m ((c.tc : Thread nD τ).loc main_arg0)) (m ((c.tc : Thread nD τ).loc main_arg1))
              (m ((c.tc : Thread nD τ).loc main_arg2)) (m ((c.tc : Thread nD τ).loc main_arg5)))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v48).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_main m ρ)

end Cert.ReferenceIdeal.Value

end
-- ==== Proof.RefValue.lean ====
/-
  The reference's propagated features read index by index.

  The reference builds A + I by accumulating a one at every pair (k, k) of an index array whose row k is (k, k); takes
  the inverse square roots d of A + I's row sums; forms the normalised adjacency (d r * (A + I) r k) * d k; and
  multiplies it with the linear layer H W + b. Read at an index each of these is the corresponding entry of the
  specification: the iota's word at k is k itself (it is never negative, so jnp's wrap-around leaves it alone); update j
  of the accumulating scatter lands at (r, k) exactly when j = r and j = k, so the ones accumulated at (r, k) sum to
  [r = k]; a row sum from the initial value 0 is 0 + the sum over the columns; a broadcast reads its operand at the
  coordinates it keeps; and a product contracted over one axis is the sum over that axis's coordinate.
-/
import proofs.«180802_j54073638257182_1_alg».proof.Proof.RefTerm
import proofs.«180802_j54073638257182_1_alg».proof.Proof.Spec
import proofs.«180802_j54073638257182_1_alg».proof.Proof.LibRowGatherScatter
import Idealize.ShloMosaic.PureOps.Ideal.Laws
import Idealize.ShloMosaic.Lib.ValueIdx

noncomputable section

open scoped BigOperators

namespace Cert.ReferenceIdeal.RefValue

open Cert.ReferenceIdeal Cert.ReferenceIdeal.Term Cert.ReferenceIdeal.Hand Idealize.ShloMosaic Idealize.ShloMosaic.ValueIdx

/-! ## The index pairs (k, k) -/

/-- A row number as a 32-bit word reads back, signed, as itself: it is below 2^31. -/
theorem toInt_ofNat_row (k : Fin 12288) : (BitVec.ofNat 32 k.val).toInt = (k.val : ℤ) := by
  have hk := k.isLt
  rw [BitVec.toInt_eq_toNat_cond, BitVec.toNat_ofNat, Nat.mod_eq_of_lt (show k.val < 2 ^ 32 by omega)]
  split <;> omega

/-- The wrapped iota at k is the word k: the iota is never negative, so the select keeps it. -/
theorem wrapIota_ix1 (k : Fin 12288) : wrapIota (ix1 k) = BitVec.ofNat 32 k.val := by
  show Scalar.select (IntOp.cmpi .slt (BitVec.ofNat 32 k.val) 0#32)
      (IntOp.addi (BitVec.ofNat 32 k.val) 12288#32) (BitVec.ofNat 32 k.val) = _
  rw [wrap_select, if_neg]
  rw [toInt_ofNat_row]
  omega

/-- Row k of the index array, first component: the word k (the first of the two concatenated columns). -/
theorem diagIdx_zero (k : Fin 12288) : diagIdx (ix2 k 0) = BitVec.ofNat 32 k.val := by
  unfold diagIdx
  refine (concatenate_pair_apply_left (t := S12288x2) (s₁ := S12288x1) (s₂ := S12288x1) (1 : Fin 2) _ _ _ (ix2 k (0 : Fin 2)) rfl (ix2 k (0 : Fin 1)) fun b => ?_).trans ?_
  · match b with
    | ⟨0, _⟩ => rfl
    | ⟨1, _⟩ => rfl
  · rw [bcastCol_apply, wrapIota_ix1]

/-- Row k of the index array, second component: the word k again (the second column). -/
theorem diagIdx_one (k : Fin 12288) : diagIdx (ix2 k 1) = BitVec.ofNat 32 k.val := by
  unfold diagIdx
  refine (concatenate_pair_apply_right (t := S12288x2) (s₁ := S12288x1) (s₂ := S12288x1) (1 : Fin 2) _ _ _ (ix2 k (1 : Fin 2)) rfl rfl (ix2 k (0 : Fin 1)) (fun b hb => ?_) ?_).trans ?_
  · match b with
    | ⟨0, _⟩ => rfl
    | ⟨1, _⟩ => exact absurd rfl hb
  · rfl
  · rw [bcastCol_apply, wrapIota_ix1]

/-! ## The accumulating point scatter

The scatter's updates are a vector [12288] with no window axis: both operand axes are inserted and indexed, and update j
reads its start (row, column) from row j of the index array. -/

section PointScatter
variable {w : Nat} (idx : IVec S12288x2 w)

/-- On the row axis update j starts at the first component of row j of the index array, read signed … -/
theorem point_start_zero (j : Fin 12288) :
    scatter_S12288x12288_S12288x2_S12288_n_01_01_1.start (ix1 j) idx 0 = (idx (ix2 j 0)).toInt := by
  unfold ScatterDims.start
  rw [dif_pos (show (0 : Fin 2) ∈ scatter_S12288x12288_S12288x2_S12288_n_01_01_1.scatterDimsToOperandDims by decide)]
  have hsi : scatter_S12288x12288_S12288x2_S12288_n_01_01_1.siIdx (ix1 j)
      ⟨List.idxOf (0 : Fin 2) scatter_S12288x12288_S12288x2_S12288_n_01_01_1.scatterDimsToOperandDims,
        List.idxOf_lt_length_iff.2 (show (0 : Fin 2) ∈ scatter_S12288x12288_S12288x2_S12288_n_01_01_1.scatterDimsToOperandDims by decide)⟩ = ix2 j 0 := by
    funext b; refine Fin.ext ?_
    match b with
    | ⟨0, _⟩ => rfl
    | ⟨1, _⟩ => rfl
  rw [hsi]

/-- … and on the column axis at the second component. -/
theorem point_start_one (j : Fin 12288) :
    scatter_S12288x12288_S12288x2_S12288_n_01_01_1.start (ix1 j) idx 1 = (idx (ix2 j 1)).toInt := by
  unfold ScatterDims.start
  rw [dif_pos (show (1 : Fin 2) ∈ scatter_S12288x12288_S12288x2_S12288_n_01_01_1.scatterDimsToOperandDims by decide)]
  have hsi : scatter_S12288x12288_S12288x2_S12288_n_01_01_1.siIdx (ix1 j)
      ⟨List.idxOf (1 : Fin 2) scatter_S12288x12288_S12288x2_S12288_n_01_01_1.scatterDimsToOperandDims,
        List.idxOf_lt_length_iff.2 (show (1 : Fin 2) ∈ scatter_S12288x12288_S12288x2_S12288_n_01_01_1.scatterDimsToOperandDims by decide)⟩ = ix2 j 1 := by
    funext b; refine Fin.ext ?_
    match b with
    | ⟨0, _⟩ => rfl
    | ⟨1, _⟩ => rfl
  rw [hsi]

/-- No operand axis is kept, so the window coordinate is 0 on both. -/
theorem point_window (j : Fin 12288) (a : Fin 2) :
    scatter_S12288x12288_S12288x2_S12288_n_01_01_1.window (ix1 j) a = 0 := by
  unfold ScatterDims.window
  rw [dif_neg]
  show a ∉ (List.finRange 2).filter (· ∉ [(0 : Fin 2), 1])
  revert a
  decide

/-- Update j lands at (r, k) exactly when row j of the index array, read signed, is (r, k). -/
theorem point_resultIdx_iff (j r k : Fin 12288) :
    scatter_S12288x12288_S12288x2_S12288_n_01_01_1.resultIdx? (ix1 j) idx = some (ix2 r k)
      ↔ (idx (ix2 j 0)).toInt = (r.val : ℤ) ∧ (idx (ix2 j 1)).toInt = (k.val : ℤ) := by
  have hr := r.isLt
  have hk := k.isLt
  have c0 : ((ix2 r k : S12288x12288.Idx) 0).val = r.val := rfl
  have c1 : ((ix2 r k : S12288x12288.Idx) 1).val = k.val := rfl
  unfold ScatterDims.resultIdx?
  split
  · next h =>
    rw [Option.some.injEq]
    have h0 := h 0
    have h1 := h 1
    rw [point_start_zero, point_window] at h0
    rw [point_start_one, point_window] at h1
    constructor
    · intro hf
      have e0 := congrArg (fun f => (f 0).val) hf
      have e1 := congrArg (fun f => (f 1).val) hf
      simp only [point_start_zero, point_start_one, point_window] at e0 e1
      constructor <;> omega
    · rintro ⟨e0, e1⟩
      funext a
      refine Fin.ext ?_
      match a with
      | ⟨0, _⟩ =>
        show (scatter_S12288x12288_S12288x2_S12288_n_01_01_1.start (ix1 j) idx 0
          + (scatter_S12288x12288_S12288x2_S12288_n_01_01_1.window (ix1 j) 0 : ℕ)).toNat = r.val
        rw [point_start_zero, point_window]
        omega
      | ⟨1, _⟩ =>
        show (scatter_S12288x12288_S12288x2_S12288_n_01_01_1.start (ix1 j) idx 1
          + (scatter_S12288x12288_S12288x2_S12288_n_01_01_1.window (ix1 j) 1 : ℕ)).toNat = k.val
        rw [point_start_one, point_window]
        omega
  · next h =>
    constructor
    · intro hf
      exact absurd hf (by simp)
    · rintro ⟨e0, e1⟩
      exfalso
      apply h
      intro a
      match a with
      | ⟨0, _⟩ =>
        show 0 ≤ scatter_S12288x12288_S12288x2_S12288_n_01_01_1.start (ix1 j) idx 0
            + (scatter_S12288x12288_S12288x2_S12288_n_01_01_1.window (ix1 j) 0 : ℕ)
          ∧ scatter_S12288x12288_S12288x2_S12288_n_01_01_1.start (ix1 j) idx 0
            + (scatter_S12288x12288_S12288x2_S12288_n_01_01_1.window (ix1 j) 0 : ℕ) < ((12288 : ℕ) : ℤ)
        rw [point_start_zero, point_window]
        omega
      | ⟨1, _⟩ =>
        show 0 ≤ scatter_S12288x12288_S12288x2_S12288_n_01_01_1.start (ix1 j) idx 1
            + (scatter_S12288x12288_S12288x2_S12288_n_01_01_1.window (ix1 j) 1 : ℕ)
          ∧ scatter_S12288x12288_S12288x2_S12288_n_01_01_1.start (ix1 j) idx 1
            + (scatter_S12288x12288_S12288x2_S12288_n_01_01_1.window (ix1 j) 1 : ℕ) < ((12288 : ℕ) : ℤ)
        rw [point_start_one, point_window]
        omega

end PointScatter

/-- With the pairs (k, k): update j lands at (r, k) exactly when j = r and j = k. -/
theorem diag_resultIdx_iff (j r k : Fin 12288) :
    scatter_S12288x12288_S12288x2_S12288_n_01_01_1.resultIdx? (ix1 j) diagIdx = some (ix2 r k) ↔ j = r ∧ j = k := by
  rw [point_resultIdx_iff, diagIdx_zero, diagIdx_one, toInt_ofNat_row]
  constructor
  · rintro ⟨e0, e1⟩
    exact ⟨Fin.ext (by omega), Fin.ext (by omega)⟩
  · rintro ⟨rfl, rfl⟩
    exact ⟨rfl, rfl⟩

/-! ## A + I, its row sums, the normalised adjacency -/

/-- The one that is accumulated: the word 0x3F800000 as an extended real. -/
theorem one_word : Ideal.ofBits .f32 0x3F800000#32 = 1 := IdealRules.sign_bit.ideal_onePat .f32

/-- The vector indices [12288] are the row numbers. -/
def idxEquiv1 : S12288.Idx ≃ Fin 12288 where
  toFun i := i 0
  invFun := ix1
  left_inv i := (eq_ix1 i).symm
  right_inv _ := rfl

/-- A + I at (r, k): the entry of A plus the ones accumulated there, one from update j when j = r and j = k, so
    one in all on the diagonal and none off it. -/
theorem adjPlusI_apply (A : FVec Ideal S12288x12288 .f32) (r k : Fin 12288) :
    adjPlusI A (ix2 r k) = Cert.Gcn.adjI A r k := by
  show Ideal.hostScatterAdd scatter_S12288x12288_S12288x2_S12288_n_01_01_1 A diagIdx
      (broadcastInDim S12288 ![] _ (constant (F := Ideal) S_ .f32 0x3F800000#32)) (ix2 r k) = _
  unfold Ideal.hostScatterAdd Cert.Gcn.adjI
  congr 1
  rw [Finset.sum_filter, ← Equiv.sum_comp idxEquiv1.symm]
  show (∑ j : Fin 12288, if scatter_S12288x12288_S12288x2_S12288_n_01_01_1.resultIdx? (ix1 j) diagIdx = some (ix2 r k)
      then Ideal.ofBits .f32 0x3F800000#32 else 0) = _
  simp only [diag_resultIdx_iff, one_word]
  by_cases hrk : r = k
  · subst hrk
    simp only [and_self, if_true]
    rw [Finset.sum_ite_eq' Finset.univ r (fun _ => (1 : EReal))]
    simp
  · rw [if_neg hrk]
    exact Finset.sum_eq_zero fun j _ => if_neg fun h => hrk (h.1.symm.trans h.2)

/-- The degree factor at r: the inverse square root of 0 + the sum of row r of A + I. -/
theorem rdeg_apply (A : FVec Ideal S12288x12288 .f32) (r : Fin 12288) :
    rdeg A (ix1 r) = Cert.Gcn.degR A r := by
  show Ideal.rsqrt (Ideal.hostReduceAdd (axes := [1]) (t := S12288) _ (adjPlusI A) (Ideal.ofBits .f32 0x00000000#32) (ix1 r)) = _
  rw [Ideal.hostReduceAdd_single _ (by decide), Ideal.ofBits_zero_f32]
  unfold Cert.Gcn.degR
  refine congrArg Ideal.rsqrt (congrArg (0 + ·) (Finset.sum_congr rfl fun k _ => ?_))
  exact (congrArg (adjPlusI A) (funext fun a => Fin.ext (by
    match a with
    | ⟨0, _⟩ => rfl
    | ⟨1, _⟩ => rfl))).trans (adjPlusI_apply A r k)

/-- The normalised adjacency at (r, k): (d r * (A + I) r k) * d k. -/
theorem normAdj_apply (A : FVec Ideal S12288x12288 .f32) (r k : Fin 12288) :
    normAdj A (ix2 r k) = (Cert.Gcn.degR A r * Cert.Gcn.adjI A r k) * Cert.Gcn.degR A k := by
  unfold normAdj
  dsimp only
  rw [mulf_apply, mulf_apply, bcastFeat_apply, bcastCol_apply, bcastRows_apply, bcastRow_apply, rdeg_apply, rdeg_apply,
    adjPlusI_apply]

/-! ## The two products contracted over one axis

Each operand index of a product at result index (r, f) and contraction coordinate k, axis by axis: the left operand is
read at (r, k), the right at (k, f). -/

theorem lhs_lin_0 (i : S12288x64.Idx) (q : dot_S12288x64_S64x64_S12288x64_1_0_0_1_n_n.contr.Idx) :
    (dot_S12288x64_S64x64_S12288x64_1_0_0_1_n_n.lhsIdx i q 0).val = (i 0).val := by
  unfold DotDims.lhsIdx
  rw [dif_neg (show ¬(0 : Fin S12288x64.rank) ∈ dot_S12288x64_S64x64_S12288x64_1_0_0_1_n_n.lhsBatch by decide),
    dif_pos (show (0 : Fin S12288x64.rank) ∈ dot_S12288x64_S64x64_S12288x64_1_0_0_1_n_n.lhsNonContracting by decide)]
  rfl

theorem lhs_lin_1 (i : S12288x64.Idx) (q : dot_S12288x64_S64x64_S12288x64_1_0_0_1_n_n.contr.Idx) :
    (dot_S12288x64_S64x64_S12288x64_1_0_0_1_n_n.lhsIdx i q 1).val = (q ⟨0, by decide⟩).val :=
  dot_S12288x64_S64x64_S12288x64_1_0_0_1_n_n.lhsIdx_val_of_single rfl i q

theorem rhs_lin_0 (i : S12288x64.Idx) (q : dot_S12288x64_S64x64_S12288x64_1_0_0_1_n_n.contr.Idx) :
    (dot_S12288x64_S64x64_S12288x64_1_0_0_1_n_n.rhsIdx i q 0).val = (q ⟨0, by decide⟩).val :=
  dot_S12288x64_S64x64_S12288x64_1_0_0_1_n_n.rhsIdx_val_of_single rfl i q

theorem rhs_lin_1 (i : S12288x64.Idx) (q : dot_S12288x64_S64x64_S12288x64_1_0_0_1_n_n.contr.Idx) :
    (dot_S12288x64_S64x64_S12288x64_1_0_0_1_n_n.rhsIdx i q 1).val = (i 1).val := by
  unfold DotDims.rhsIdx
  rw [dif_neg (show ¬(1 : Fin S64x64.rank) ∈ dot_S12288x64_S64x64_S12288x64_1_0_0_1_n_n.rhsBatch by decide),
    dif_pos (show (1 : Fin S64x64.rank) ∈ dot_S12288x64_S64x64_S12288x64_1_0_0_1_n_n.rhsNonContracting by decide)]
  rfl

/-- The [12288, 64] by [64, 64] product at (r, f): the sum over k of left (r, k) times right (k, f). -/
theorem dotLin_apply (X : FVec Ideal S12288x64 .f32) (Y : FVec Ideal S64x64 .f32) (r : Fin 12288) (f : Fin 64) :
    Host.dotGeneral (F := Ideal) dot_S12288x64_S64x64_S12288x64_1_0_0_1_n_n none X Y (ix2 r f)
      = ∑ k : Fin 64, X (ix2 r k) * Y (ix2 k f) := by
  simp only [Host.dotGeneral]
  rw [Ideal.dotGeneral_apply,
    ← Equiv.sum_comp (contrEquiv1 dot_S12288x64_S64x64_S12288x64_1_0_0_1_n_n 64 rfl rfl).symm]
  refine Finset.sum_congr rfl fun k _ => ?_
  have hk := contrEquiv1_symm_val dot_S12288x64_S64x64_S12288x64_1_0_0_1_n_n 64 rfl rfl k
  have el : dot_S12288x64_S64x64_S12288x64_1_0_0_1_n_n.lhsIdx (ix2 r f)
      ((contrEquiv1 dot_S12288x64_S64x64_S12288x64_1_0_0_1_n_n 64 rfl rfl).symm k) = ix2 r k :=
    funext fun a => Fin.ext (by
      match a with
      | ⟨0, _⟩ => exact lhs_lin_0 _ _
      | ⟨1, _⟩ => exact (lhs_lin_1 _ _).trans hk)
  have er : dot_S12288x64_S64x64_S12288x64_1_0_0_1_n_n.rhsIdx (ix2 r f)
      ((contrEquiv1 dot_S12288x64_S64x64_S12288x64_1_0_0_1_n_n 64 rfl rfl).symm k) = ix2 k f :=
    funext fun a => Fin.ext (by
      match a with
      | ⟨0, _⟩ => exact (rhs_lin_0 _ _).trans hk
      | ⟨1, _⟩ => exact rhs_lin_1 _ _)
  rw [el, er]

theorem lhs_prop_0 (i : S12288x64.Idx) (q : dot_S12288x12288_S12288x64_S12288x64_1_0_0_1_n_n.contr.Idx) :
    (dot_S12288x12288_S12288x64_S12288x64_1_0_0_1_n_n.lhsIdx i q 0).val = (i 0).val := by
  unfold DotDims.lhsIdx
  rw [dif_neg (show ¬(0 : Fin S12288x12288.rank) ∈ dot_S12288x12288_S12288x64_S12288x64_1_0_0_1_n_n.lhsBatch by decide),
    dif_pos (show (0 : Fin S12288x12288.rank) ∈ dot_S12288x12288_S12288x64_S12288x64_1_0_0_1_n_n.lhsNonContracting by decide)]
  rfl

theorem lhs_prop_1 (i : S12288x64.Idx) (q : dot_S12288x12288_S12288x64_S12288x64_1_0_0_1_n_n.contr.Idx) :
    (dot_S12288x12288_S12288x64_S12288x64_1_0_0_1_n_n.lhsIdx i q 1).val = (q ⟨0, by decide⟩).val :=
  dot_S12288x12288_S12288x64_S12288x64_1_0_0_1_n_n.lhsIdx_val_of_single rfl i q

theorem rhs_prop_0 (i : S12288x64.Idx) (q : dot_S12288x12288_S12288x64_S12288x64_1_0_0_1_n_n.contr.Idx) :
    (dot_S12288x12288_S12288x64_S12288x64_1_0_0_1_n_n.rhsIdx i q 0).val = (q ⟨0, by decide⟩).val :=
  dot_S12288x12288_S12288x64_S12288x64_1_0_0_1_n_n.rhsIdx_val_of_single rfl i q

theorem rhs_prop_1 (i : S12288x64.Idx) (q : dot_S12288x12288_S12288x64_S12288x64_1_0_0_1_n_n.contr.Idx) :
    (dot_S12288x12288_S12288x64_S12288x64_1_0_0_1_n_n.rhsIdx i q 1).val = (i 1).val := by
  unfold DotDims.rhsIdx
  rw [dif_neg (show ¬(1 : Fin S12288x64.rank) ∈ dot_S12288x12288_S12288x64_S12288x64_1_0_0_1_n_n.rhsBatch by decide),
    dif_pos (show (1 : Fin S12288x64.rank) ∈ dot_S12288x12288_S12288x64_S12288x64_1_0_0_1_n_n.rhsNonContracting by decide)]
  rfl

/-- The [12288, 12288] by [12288, 64] product at (r, f): the sum over k of left (r, k) times right (k, f). -/
theorem dotProp_apply (X : FVec Ideal S12288x12288 .f32) (Y : FVec Ideal S12288x64 .f32) (r : Fin 12288) (f : Fin 64) :
    Host.dotGeneral (F := Ideal) dot_S12288x12288_S12288x64_S12288x64_1_0_0_1_n_n none X Y (ix2 r f)
      = ∑ k : Fin 12288, X (ix2 r k) * Y (ix2 k f) := by
  simp only [Host.dotGeneral]
  rw [Ideal.dotGeneral_apply,
    ← Equiv.sum_comp (contrEquiv1 dot_S12288x12288_S12288x64_S12288x64_1_0_0_1_n_n 12288 rfl rfl).symm]
  refine Finset.sum_congr rfl fun k _ => ?_
  have hk := contrEquiv1_symm_val dot_S12288x12288_S12288x64_S12288x64_1_0_0_1_n_n 12288 rfl rfl k
  have el : dot_S12288x12288_S12288x64_S12288x64_1_0_0_1_n_n.lhsIdx (ix2 r f)
      ((contrEquiv1 dot_S12288x12288_S12288x64_S12288x64_1_0_0_1_n_n 12288 rfl rfl).symm k) = ix2 r k :=
    funext fun a => Fin.ext (by
      match a with
      | ⟨0, _⟩ => exact lhs_prop_0 _ _
      | ⟨1, _⟩ => exact (lhs_prop_1 _ _).trans hk)
  have er : dot_S12288x12288_S12288x64_S12288x64_1_0_0_1_n_n.rhsIdx (ix2 r f)
      ((contrEquiv1 dot_S12288x12288_S12288x64_S12288x64_1_0_0_1_n_n 12288 rfl rfl).symm k) = ix2 k f :=
    funext fun a => Fin.ext (by
      match a with
      | ⟨0, _⟩ => exact (rhs_prop_0 _ _).trans hk
      | ⟨1, _⟩ => exact rhs_prop_1 _ _)
  rw [el, er]

/-! ## The linear layer and the propagated features -/

/-- The linear layer at (r, f): the sum over k of H (r, k) * W (k, f), plus b f. -/
theorem linear_apply (H : FVec Ideal S12288x64 .f32) (W : FVec Ideal S64x64 .f32) (b : FVec Ideal S64 .f32)
    (r : Fin 12288) (f : Fin 64) : linear H W b (ix2 r f) = Cert.Gcn.lin H W b r f := by
  unfold linear Cert.Gcn.lin
  dsimp only
  rw [addf_apply, dotLin_apply, bcastRows_apply, bcastRow_apply]

/-- The reference's propagated features at (r, f): the sum over k of the normalised adjacency at (r, k) times the
    linear layer at (k, f). -/
theorem refOut_apply (H : FVec Ideal S12288x64 .f32) (W : FVec Ideal S64x64 .f32) (b : FVec Ideal S64 .f32)
    (A : FVec Ideal S12288x12288 .f32) (r : Fin 12288) (f : Fin 64) :
    refOut H W b A (ix2 r f) = Cert.Gcn.propR A (Cert.Gcn.lin H W b) r f := by
  unfold refOut Cert.Gcn.propR
  rw [dotProp_apply]
  exact Finset.sum_congr rfl fun k _ => by rw [normAdj_apply, linear_apply]

/-- The reference's propagated features are the specification's, as arrays. -/
theorem refOut_eq (H : FVec Ideal S12288x64 .f32) (W : FVec Ideal S64x64 .f32) (b : FVec Ideal S64 .f32)
    (A : FVec Ideal S12288x12288 .f32) :
    Cert.ReferenceIdeal.Term.refOut H W b A = Cert.Gcn.arr2 (Cert.Gcn.propR A (Cert.Gcn.lin H W b)) := by
  funext i
  obtain ⟨r, f, rfl⟩ : ∃ (r : Fin 12288) (f : Fin 64), i = ix2 r f := ⟨i 0, i 1, eq_ix2 i⟩
  rw [Cert.Gcn.arr2_ix2]
  exact refOut_apply H W b A r f

end Cert.ReferenceIdeal.RefValue

end
-- ==== Proof.lean ====
/-
  The certificate of the graph-convolution layer: the kernel program (a linear layer on the host, a first kernel for
  the degree factors d r = rsqrt (sum_k A r k + 1), the host's Y = d * X, a second kernel for
  d r * (sum_k A r k * Y k f + Y r f), then batch normalisation over the rows and a leaky rectifier on the host)
  against the reference, which forms A + I by an accumulating scatter, the normalised adjacency
  (d r * (A + I) r k) * d k, its product with X, and the same normalisation and rectifier.

  At the ideal instance both propagations are sums of products of extended reals. They are one function where every
  entry of H, W, b and A is a real and every row sum of A + I is positive, so that every d r is a positive real:
  then the sum distributes (Join.lean). Where a row of A + I sums to zero, d r is the top element, distributivity
  fails and the two programs differ; the precondition therefore carries, beside the finiteness of the inputs, the
  conjunct that keeps the reference's inverse square root inside its domain. The normalisation and the rectifier
  that follow are the same chain of operations on both sides and are never opened (Spec.lean's `tail`).

  The three frames: the kernel program's two are the generated frame certificates of its two regions among its
  host stretches; the reference's is its run with the result dropped. The idealization rewrote nothing, so the
  preservation claim is trivial.
-/
import proofs.«180802_j54073638257182_1_alg».proof.Defs
import proofs.«180802_j54073638257182_1_alg».proof.Proof.Gen.Kernel
import proofs.«180802_j54073638257182_1_alg».proof.Proof.Gen.Kernel.Frame
import proofs.«180802_j54073638257182_1_alg».proof.Proof.Gen.KernelIdeal
import proofs.«180802_j54073638257182_1_alg».proof.Proof.Gen.KernelIdeal.Frame
import proofs.«180802_j54073638257182_1_alg».proof.Proof.Gen.ReferenceIdeal
import proofs.«180802_j54073638257182_1_alg».proof.Proof.Gen.Pre_finite_inputs
import proofs.«180802_j54073638257182_1_alg».proof.Proof.Spec
import proofs.«180802_j54073638257182_1_alg».proof.Proof.Join
import proofs.«180802_j54073638257182_1_alg».proof.Proof.PreFacts
import proofs.«180802_j54073638257182_1_alg».proof.Proof.KernelRun
import proofs.«180802_j54073638257182_1_alg».proof.Proof.KernelValue
import proofs.«180802_j54073638257182_1_alg».proof.Proof.RefRun
import proofs.«180802_j54073638257182_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run m ρ)

/-- Both programs end at the shared chain applied to the factored propagation of the linear layer: the kernel
    program by its two regions' values, the reference by its operations read at an index and the distributive law,
    which the precondition licenses. -/
theorem algebraic : Cert.algebraic_KernelIdeal_ReferenceIdeal := by
  intro m ρ m' ρ' hpre hagree
  refine ⟨fun c => Cert.Gcn.tail (Cert.Gcn.arr2 (Cert.Gcn.prop (m ((c.tc : Thread Cert.KernelIdeal.nD Cert.KernelIdeal.τ).loc Cert.KernelIdeal.main_arg5))
      (Cert.Gcn.lin (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)))))
      (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono
      (fun _ h c => ⟨(h c).1.trans (Cert.KernelIdeal.Whole.result_eq m ρ c), (h c).2⟩)
      (Cert.KernelIdeal.Run.run (F := Ideal) m ρ)
  · refine (θ_run Cert.ReferenceIdeal.defs _ _).mono (fun _ h c => ⟨(h c).1.trans ?_, (h c).2⟩)
      (Cert.ReferenceIdeal.Value.run m' ρ')
    obtain ⟨hH, hW, hb, hA, hpos⟩ := Cert.Gcn.facts_of_pre _ _ _ _ _ _ (hpre c)
    rw [(hagree c).1, (hagree c).2.1, (hagree c).2.2.1, (hagree c).2.2.2.1, (hagree c).2.2.2.2.1, (hagree c).2.2.2.2.2,
      Cert.ReferenceIdeal.RefValue.refOut_eq,
      Cert.Gcn.propR_eq_prop _ _ hA (fun k f => Cert.Gcn.lin_real _ _ _ hH hW hb k f) hpos]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
